-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000x32 : Shape := ⟨2, ![800000, 32]⟩
abbrev S2x800000 : Shape := ⟨2, ![2, 800000]⟩
abbrev S160x128 : Shape := ⟨2, ![160, 128]⟩
abbrev S128 : Shape := ⟨1, ![128]⟩
abbrev S128x128 : Shape := ⟨2, ![128, 128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_

variable [Facts]

def fn_part3 {F : FTy → Type} [FloatOps F] (main_arg12 : FVec F S256x128 .f32) (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S256x128 .f32 := Host.absf main_arg12
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S256x128 .f32) (main_arg9 : FVec F S128 .f32) (main_arg10 : FVec F S256x128 .f32) (main_arg11 : FVec F S128 .f32) (main_arg12 : FVec F S256x128 .f32) (main_arg13 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S256x128 .f32) (main_arg9 : FVec F S128 .f32) (main_arg10 : FVec F S256x128 .f32) (main_arg11 : FVec F S128 .f32) (main_arg12 : FVec F S256x128 .f32) (main_arg13 : FVec F S128 .f32) (main_v13 : IVec S_ 1) (main_v16 : IVec S160x128 1) : IVec S_ 1 :=
  let main_c_5 : IVec S_ 1 := constantI S_ 1 1#1
  let main_v17 : IVec S_ 1 := (fun x v => Host.reduce IntOp.andi x v reducesTo_S160x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : FVec F S800000x32 .f32) (main_arg2 : FVec F S50000x128 .f32) (main_arg3 : IVec S2x800000 32) (main_arg4 : FVec F S160x128 .f32) (main_arg5 : FVec F S128 .f32) (main_arg6 : FVec F S128x128 .f32) (main_arg7 : FVec F S128 .f32) (main_arg8 : FVec F S256x128 .f32) (main_arg9 : FVec F S128 .f32) (main_arg10 : FVec F S256x128 .f32) (main_arg11 : FVec F S128 .f32) (main_arg12 : FVec F S256x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x32 .f32 := Host.absf main_arg1
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S160x128 .f32 := Host.absf main_arg4
  let main_cst_4 : FVec F S_ .f32 := constant S_ .f32 0x7F800000#32
  let main_v15 : FVec F S160x128 .f32 := broadcastInDim S160x128 ![] bcast_S_S160x128 main_cst_4
  let main_v16 : IVec S160x128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S800000x32 : Shape := ⟨2, ![800000, 32]⟩
abbrev S2x800000 : Shape := ⟨2, ![2, 800000]⟩
abbrev S160x128 : Shape := ⟨2, ![160, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x32 : Shape := ⟨2, ![50000, 32]⟩
abbrev S32x128 : Shape := ⟨2, ![32, 128]⟩
abbrev S1x128 : Shape := ⟨2, ![1, 128]⟩
abbrev S2000x128 : Shape := ⟨2, ![2000, 128]⟩
abbrev S2000x32 : Shape := ⟨2, ![2000, 32]⟩
abbrev S2000x256 : Shape := ⟨2, ![2000, 256]⟩

abbrev nBuf : Space → Nat
  | .hbm => 43
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S50000x128, .f32⟩
  | .hbm, ⟨3, _⟩ => ⟨S2x800000, .i32⟩
  | .hbm, ⟨4, _⟩ => ⟨S160x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S_, .f32⟩
  | .hbm, ⟨32, _⟩ => ⟨S50000x32, .f32⟩
  | .hbm, ⟨33, _⟩ => ⟨S800000x1, .i32⟩
  | .hbm, ⟨34, _⟩ => ⟨S50000x32, .f32⟩
  | .hbm, ⟨35, _⟩ => ⟨S128x128, .f32⟩
  | .hbm, ⟨36, _⟩ => ⟨S32x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x32, .f32⟩
  | .local _ .vmem, ⟨3, _⟩ => ⟨S2000x32, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x128, .f32⟩
  | .local _ .vmem, ⟨9, _⟩ => ⟨S32x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S256x128, .f32⟩
  | .local _ .vmem, ⟨14, _⟩ => ⟨S1x128, .f32⟩
  | .local _ .vmem, ⟨15, _⟩ => ⟨S256x128, .f32⟩
  | .local _ .vmem, ⟨16, _⟩ => ⟨S1x128, .f32⟩
  | .local _ .vmem, ⟨17, _⟩ => ⟨S256x128, .f32⟩
  | .local _ .vmem, ⟨18, _⟩ => ⟨S1x128, .f32⟩
  | .local _ .vmem, ⟨19, _⟩ => ⟨S2000x128, .f32⟩
  | .local _ .vmem, ⟨20, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000x32 : S_.BroadcastsInDim S50000x32 (![] : Fin 0 → Fin S50000x32.rank)
  slices_S160x128_S128x128_0_0 : S160x128.Slices ![0, 0] S128x128
  slices_S160x128_S32x128_128_0 : S160x128.Slices ![128, 0] S32x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  concatenates_S2000x128_S2000x128_S2000x256_d1 : Shape.Concatenates [S2000x128, S2000x128] S2000x256 1
  inb_S256x128_S256x128_0_0 : ∀ a, (![0, 0] : Fin 2 → Nat) a + S256x128.size a ≤ S256x128.size a
  h_S256x128 : 0 < S256x128.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x32_S800000x1_S800000x32_1_0_0_1_wf : ScatterDims.WF S50000x32 S800000x1 S800000x32 [1] [0] [0] 1
  dot_S2000x128_S128x128_S2000x128_1_0_0_1_n_n_wf : DotDims.WF S2000x128 S128x128 S2000x128 [1] [0] [0] [1] [] []
  dot_S2000x32_S32x128_S2000x128_1_0_0_1_n_n_wf : DotDims.WF S2000x32 S32x128 S2000x128 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x32.size a ≤ S50000x32.size a
  hwx0_1 : ∀ i : grid0.Coords, EltTy.bits .f32 = 32 ∨ (Rect.block (s := S50000x32) S2000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x128.size a ≤ S256x128.size a
  hwx0_9 : ∀ i : grid0.Coords, EltTy.bits .f32 = 32 ∨ (Rect.block (s := S256x128) S256x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .f32 = 32 ∨ (Rect.block (s := S256x128) S256x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x128.size a ≤ S256x128.size a
  hwx0_13 : ∀ i : grid0.Coords, EltTy.bits .f32 = 32 ∨ (Rect.block (s := S256x128) S256x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x128.size a ≤ S50000x128.size a
  hwx0_15 : ∀ i : grid0.Coords, EltTy.bits .f32 = 32 ∨ (Rect.block (s := S50000x128) S2000x128.size (cc0_transform_15 i) (hinb0_15 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v13) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v20) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S256x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v21) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v22) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S256x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v24) S2000x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x128 : Shape := ⟨2, ![50000, 128]⟩
abbrev S800000x32 : Shape := ⟨2, ![800000, 32]⟩
abbrev S2x800000 : Shape := ⟨2, ![2, 800000]⟩
abbrev S160x128 : Shape := ⟨2, ![160, 128]⟩
abbrev S128 : Shape := ⟨1, ![128]⟩
abbrev S128x128 : Shape := ⟨2, ![128, 128]⟩
abbrev S256x128 : Shape := ⟨2, ![256, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x160 : Shape := ⟨2, ![800000, 160]⟩
abbrev S1x128 : Shape := ⟨2, ![1, 128]⟩
abbrev S50000x256 : Shape := ⟨2, ![50000, 256]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000x32, .f32⟩
  | .hbm, ⟨2, _⟩ => ⟨S50000x128, .f32⟩
  | .hbm, ⟨3, _⟩ => ⟨S2x800000, .i32⟩
  | .hbm, ⟨4, _⟩ => ⟨S160x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x128, .f32⟩
  | .hbm, ⟨9, _⟩ => ⟨S128, .f32⟩
  | .hbm, ⟨10, _⟩ => ⟨S256x128, .f32⟩
  | .hbm, ⟨11, _⟩ => ⟨S128, .f32⟩
  | .hbm, ⟨12, _⟩ => ⟨S256x128, .f32⟩
  | .hbm, ⟨13, _⟩ => ⟨S128, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x128, .f32⟩
  | .hbm, ⟨27, _⟩ => ⟨S800000x160, .f32⟩
  | .hbm, ⟨28, _⟩ => ⟨S800000x128, .f32⟩
  | .hbm, ⟨29, _⟩ => ⟨S_, .f32⟩
  | .hbm, ⟨30, _⟩ => ⟨S50000x128, .f32⟩
  | .hbm, ⟨31, _⟩ => ⟨S800000x1, .i32⟩
  | .hbm, ⟨32, _⟩ => ⟨S50000x128, .f32⟩
  | .hbm, ⟨33, _⟩ => ⟨S1x128, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S_, .f32⟩
  | .hbm, ⟨42, _⟩ => ⟨S50000x128, .f32⟩
  | .hbm, ⟨43, _⟩ => ⟨S50000x128, .f32⟩
  | .hbm, ⟨44, _⟩ => ⟨S50000x256, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S_, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S_, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S50000x256, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S_, .f32⟩
  | .hbm, ⟨78, _⟩ => ⟨S50000x128, .f32⟩
  | .hbm, ⟨79, _⟩ => ⟨S50000x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call0_cst : Ref sig .tc := ⟨.hbm, 41, rfl⟩
abbrev main_call0_v0 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_3 : Ref sig .tc := ⟨.hbm, 63, rfl⟩
abbrev main_v42 : Ref sig .tc := ⟨.hbm, 64, rfl⟩
abbrev main_v43 : Ref sig .tc := ⟨.hbm, 65, rfl⟩
abbrev main_cst_4 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_5 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x32_S800000x160_d1 : Shape.Concatenates [S800000x128, S800000x32] S800000x160 1
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x128_S50000x128_S50000x256_d1 : Shape.Concatenates [S50000x128, S50000x128] S50000x256 1
  gather_S50000x128_S800000x1_S800000x128_1_0_n_n_0_1_1128_wf : GatherDims.WF S50000x128 S800000x1 S800000x128 [1] [0] [] [0] [] 1 ![1, 128]
  dot_S800000x160_S160x128_S800000x128_1_0_0_1_n_n_wf : DotDims.WF S800000x160 S160x128 S800000x128 [1] [0] [0] [1] [] []
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibRows.lean ====
/-
  ROWS OF A TABLE, READ AND ADDED INTO.

  Taking rows of a table by an integer index array (x[idx]) is a gather whose start word names the row: the word is
  read as a signed integer and clamped into the table (grow). Adding rows into a table (a segment sum: each update
  row is added to the table row its index names) is a scatter whose start word names the row the update lands on:
  the word is read as a signed integer and the update is dropped when the row is outside the table (srow). This
  file reads both operations at one index for the dimension numbers those two idioms carry, and collects the sum
  laws on the extended reals that a value proof over such sums uses: a finite nonnegative factor distributes over a
  finite sum, a sum over Fin (a * b) splits into blocks, and the reciprocal square root of a number at least 1 is
  such a factor.
-/
import Idealize.ShloMosaic.PureOps
import Idealize.ShloMosaic.PureOps.Ideal
import Idealize.ShloMosaic.PureOps.Ideal.Laws
import Idealize.ShloMosaic.Lib.ValueIdx
import Mathlib.Data.EReal.Operations
import Mathlib.Logic.Equiv.Fin.Basic
import Mathlib.Algebra.BigOperators.Fin

noncomputable section

open scoped BigOperators

namespace Idealize.ShloMosaic.Rows

open Idealize.ShloMosaic Idealize.ShloMosaic.ValueIdx

/-! ## The row a start word names -/

/-- The row a gather reads for a start word: the word as a signed integer, clamped into [0, N - 1]. -/
def grow (N : ℕ) (hN : 0 < N) {w : ℕ} (v : BitVec w) : Fin N := ⟨min v.toInt.toNat (N - 1), by omega⟩

/-- The row a scatter's update lands on: the word as a signed integer, and no row at all when that integer is
    outside [0, N). -/
def srow (N : ℕ) {w : ℕ} (v : BitVec w) : Option (Fin N) :=
  if h : 0 ≤ v.toInt ∧ v.toInt < N then some ⟨v.toInt.toNat, by omega⟩ else none

/-- Where the scatter's row exists, the gather's clamped row is the same row: inside the table the clamp does
    nothing. -/
theorem grow_of_srow {N : ℕ} (hN : 0 < N) {w : ℕ} {v : BitVec w} {n : Fin N} (h : srow N v = some n) :
    grow N hN v = n := by
  unfold srow at h
  split at h
  · rename_i hv
    obtain rfl := Option.some.inj h
    refine Fin.ext ?_
    show min v.toInt.toNat (N - 1) = v.toInt.toNat
    omega
  · exact absurd h (by simp)

/-- A start word whose scatter row exists is nonnegative as a signed integer. -/
theorem srow_nonneg {N w : ℕ} {v : BitVec w} {n : Fin N} (h : srow N v = some n) : 0 ≤ v.toInt := by
  unfold srow at h
  split at h
  · rename_i hv
    exact hv.1
  · exact absurd h (by simp)

/-- The scatter's row is r exactly when the start word, as a signed integer, is r. -/
theorem srow_eq_some_iff {N w : ℕ} {v : BitVec w} {r : Fin N} : srow N v = some r ↔ v.toInt = (r.val : ℤ) := by
  have hr := r.isLt
  unfold srow
  constructor
  · intro h
    split at h
    · rename_i hv
      obtain rfl := Option.some.inj h
      show v.toInt = ((v.toInt.toNat : ℕ) : ℤ)
      omega
    · exact absurd h (by simp)
  · intro h
    rw [dif_pos ⟨by omega, by omega⟩]
    congr 1
    refine Fin.ext ?_
    show v.toInt.toNat = r.val
    omega

/-! ## Gathering rows of a rank-2 table -/

/-- The dimension numbers of taking rows of an [N, C] table at start indices [n, 1] into an [n, C] result: the
    result's axis 1 is the offset axis, the table's axis 0 is collapsed and is the one the start index names, the
    index vector lies on axis 1 of the start indices, and a slice is one row, [1, C]. -/
abbrev rowGatherDims (N n C : ℕ)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (e, c): the table at the row the start word idx[e, 0] names (signed, clamped) and at
    column c. -/
theorem gather_rows_apply {α : Type} {N n C w : ℕ} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (j : (⟨2, ![n, C]⟩ : Shape).Idx) :
    Host.gather (rowGatherDims N n C wf) x idx j
      = x (ix2 (grow N hN (idx (ix2 ⟨(j 0).val, idx2_lt0 j⟩ ⟨0, Nat.one_pos⟩))) ⟨(j 1).val, idx2_lt1 j⟩) := by
  unfold Host.gather
  congr 1
  funext a
  refine Fin.ext ?_
  show (rowGatherDims N n C wf).start j idx a + (rowGatherDims N n C wf).batchCoord j a
    + (rowGatherDims N n C wf).offCoord j a = _
  rw [GatherDims.batchCoord_eq_zero _ _ _ List.not_mem_nil]
  match a with
  | ⟨0, h0⟩ =>
    -- the collapsed axis: the clamped start, no offset
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowGatherDims N n C wf).startIndexMap from List.mem_singleton.mpr rfl)]
    have hsi : (rowGatherDims N n C wf).siIdx j ⟨List.idxOf (⟨0, h0⟩ : Fin 2) (rowGatherDims N n C wf).startIndexMap,
        List.idxOf_lt_length_iff.2 (List.mem_singleton.mpr rfl)⟩ = ix2 ⟨(j 0).val, idx2_lt0 j⟩ ⟨0, Nat.one_pos⟩ := by
      funext b; refine Fin.ext ?_
      match b with
      | ⟨0, _⟩ => rfl
      | ⟨1, _⟩ => rfl
    rw [hsi]
    rfl
  | ⟨1, h1⟩ =>
    -- the offset axis: no start, the result's column
    have hns : (⟨1, h1⟩ : Fin 2) ∉ (rowGatherDims N n C wf).startIndexMap :=
      fun h => Nat.one_ne_zero (congrArg Fin.val (List.mem_singleton.mp h))
    have hk : (⟨1, h1⟩ : Fin 2) ∈ (rowGatherDims N n C wf).sKept :=
      (GatherDims.mem_sKept _ _).mpr
        ⟨fun h => Nat.one_ne_zero (congrArg Fin.val (List.mem_singleton.mp h)), List.not_mem_nil⟩
    unfold GatherDims.start GatherDims.offCoord
    rw [dif_neg hns, dif_pos hk]
    simp only [Nat.zero_add, Nat.add_zero]
    rfl

/-! ## Gathering entries of a rank-1 table at a column of start indices -/

/-- The dimension numbers of taking entries of an [N] table at start indices [n, 1] into an [n] result: no offset
    axis, the table's one axis collapsed and named by the start index, the index vector on axis 1 of the start
    indices, and a slice is one entry. -/
abbrev colGatherDims (N n : ℕ) (wf : GatherDims.WF ⟨1, ![N]⟩ ⟨2, ![n, 1]⟩ ⟨1, ![n]⟩ [] [0] [] [0] [] 1 ![1]) :
    GatherDims ⟨1, ![N]⟩ ⟨2, ![n, 1]⟩ ⟨1, ![n]⟩ where
  offsetDims := []
  collapsedSliceDims := [0]
  operandBatchingDims := []
  startIndicesBatchingDims := []
  startIndexMap := [0]
  indexVectorDim := 1
  sliceSizes := ![1]
  wf := wf

/-- That gather read at e: the table at the entry the start word idx[e, 0] names (signed, clamped). -/
theorem gather_col_apply {α : Type} {N n w : ℕ} (hN : 0 < N)
    (wf : GatherDims.WF ⟨1, ![N]⟩ ⟨2, ![n, 1]⟩ ⟨1, ![n]⟩ [] [0] [] [0] [] 1 ![1])
    (x : (⟨1, ![N]⟩ : Shape).Idx → α) (idx : IVec ⟨2, ![n, 1]⟩ w) (j : (⟨1, ![n]⟩ : Shape).Idx) :
    Host.gather (colGatherDims N n wf) x idx j
      = x (ix1 (grow N hN (idx (ix2 ⟨(j 0).val, (j 0).isLt⟩ ⟨0, Nat.one_pos⟩)))) := by
  unfold Host.gather
  congr 1
  funext a
  obtain rfl : a = 0 := Subsingleton.elim _ _
  refine Fin.ext ?_
  show (colGatherDims N n wf).start j idx 0 + (colGatherDims N n wf).batchCoord j 0
    + (colGatherDims N n wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (colGatherDims N n wf).startIndexMap from List.mem_singleton.mpr rfl)]
  have hsi : (colGatherDims N n wf).siIdx j ⟨List.idxOf (0 : Fin 1) (colGatherDims N n wf).startIndexMap,
      List.idxOf_lt_length_iff.2 (List.mem_singleton.mpr rfl)⟩ = ix2 ⟨(j 0).val, (j 0).isLt⟩ ⟨0, Nat.one_pos⟩ := by
    funext b; refine Fin.ext ?_
    match b with
    | ⟨0, _⟩ => rfl
    | ⟨1, _⟩ => rfl
  rw [hsi]
  rfl

/-! ## Adding rows into a rank-2 table -/

/-- The dimension numbers of adding the rows of [n, C] updates into an [N, C] table at scatter indices [n, 1]: the
    updates' axis 1 is the window axis, the table's axis 0 is the inserted one and the one the scatter index names,
    and the index vector lies on axis 1 of the scatter indices. -/
abbrev rowScatterDims (N n C : ℕ) (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

/-- Update element (e, c) lands on table element (r, c') exactly when the start word idx[e, 0] names row r (signed,
    inside the table) and the columns agree. -/
theorem resultIdx_rows {N n C w : ℕ} (wf : ScatterDims.WF ⟨2, ![N, C]⟩ ⟨2, ![n, 1]⟩ ⟨2, ![n, C]⟩ [1] [0] [0] 1)
    (idx : IVec ⟨2, ![n, 1]⟩ w) (j : (⟨2, ![n, C]⟩ : Shape).Idx) (i : (⟨2, ![N, C]⟩ : Shape).Idx) :
    (rowScatterDims N n C wf).resultIdx? j idx = some i
      ↔ srow N (idx (ix2 ⟨(j 0).val, idx2_lt0 j⟩ ⟨0, Nat.one_pos⟩)) = some ⟨(i 0).val, idx2_lt0 i⟩
        ∧ (i 1).val = (j 1).val := by
  -- the four coordinates of the landing position: start and window on the row axis and on the column axis
  have hs0 : ∀ h0 : 0 < 2, (rowScatterDims N n C wf).start j idx ⟨0, h0⟩
      = (idx (ix2 ⟨(j 0).val, idx2_lt0 j⟩ ⟨0, Nat.one_pos⟩)).toInt := by
    intro h0
    unfold ScatterDims.start
    rw [dif_pos (show (⟨0, h0⟩ : Fin 2) ∈ (rowScatterDims N n C wf).scatterDimsToOperandDims from
      List.mem_singleton.mpr rfl)]
    have hsi : (rowScatterDims N n C wf).siIdx j
        ⟨List.idxOf (⟨0, h0⟩ : Fin 2) (rowScatterDims N n C wf).scatterDimsToOperandDims,
          List.idxOf_lt_length_iff.2 (List.mem_singleton.mpr rfl)⟩
        = ix2 ⟨(j 0).val, idx2_lt0 j⟩ ⟨0, Nat.one_pos⟩ := by
      funext b; refine Fin.ext ?_
      match b with
      | ⟨0, _⟩ => rfl
      | ⟨1, _⟩ => rfl
    rw [hsi]
  have hs1 : ∀ h1 : 1 < 2, (rowScatterDims N n C wf).start j idx ⟨1, h1⟩ = 0 := by
    intro h1
    unfold ScatterDims.start
    rw [dif_neg (fun h => Nat.one_ne_zero (congrArg Fin.val (List.mem_singleton.mp h)))]
  have hw0 : ∀ h0 : 0 < 2, (rowScatterDims N n C wf).window j ⟨0, h0⟩ = 0 := by
    intro h0
    unfold ScatterDims.window
    rw [dif_neg]
    intro h
    have := (List.mem_filter.mp h).2
    simp at this
  have hw1 : ∀ h1 : 1 < 2, (rowScatterDims N n C wf).window j ⟨1, h1⟩ = (j 1).val := by
    intro h1
    have hk : (⟨1, h1⟩ : Fin 2) ∈ (rowScatterDims N n C wf).sKept :=
      List.mem_filter.mpr ⟨List.mem_finRange _, by simp⟩
    unfold ScatterDims.window
    rw [dif_pos hk]
    rfl
  have hi0 := idx2_lt0 i
  have hj1 := idx2_lt1 j
  rw [srow_eq_some_iff]
  show _ ↔ (idx (ix2 ⟨(j 0).val, idx2_lt0 j⟩ ⟨0, Nat.one_pos⟩)).toInt = ((i 0).val : ℤ) ∧ (i 1).val = (j 1).val
  unfold ScatterDims.resultIdx?
  constructor
  · -- a landing position inside the table: read its two coordinates
    intro h
    by_cases hall : ∀ a, 0 ≤ (rowScatterDims N n C wf).start j idx a + ((rowScatterDims N n C wf).window j a : ℕ)
        ∧ (rowScatterDims N n C wf).start j idx a + ((rowScatterDims N n C wf).window j a : ℕ)
          < ((⟨2, ![N, C]⟩ : Shape).size a : ℕ)
    · rw [dif_pos hall] at h
      have hi := Option.some.inj h
      have a0 := hall ⟨0, Nat.zero_lt_two⟩
      have e0 : ((rowScatterDims N n C wf).start j idx ⟨0, Nat.zero_lt_two⟩
          + ((rowScatterDims N n C wf).window j ⟨0, Nat.zero_lt_two⟩ : ℕ)).toNat = (i 0).val :=
        congrArg (fun f => (f 0).val) hi
      have e1 : ((rowScatterDims N n C wf).start j idx ⟨1, Nat.one_lt_two⟩
          + ((rowScatterDims N n C wf).window j ⟨1, Nat.one_lt_two⟩ : ℕ)).toNat = (i 1).val :=
        congrArg (fun f => (f 1).val) hi
      rw [hs0, hw0] at a0 e0
      rw [hs1, hw1] at e1
      constructor <;> omega
    · rw [dif_neg hall] at h
      exact absurd h (by simp)
  · -- a row inside the table and the same column: the position is inside on both axes, and it is that one
    rintro ⟨hv, hc⟩
    have hall : ∀ a, 0 ≤ (rowScatterDims N n C wf).start j idx a + ((rowScatterDims N n C wf).window j a : ℕ)
        ∧ (rowScatterDims N n C wf).start j idx a + ((rowScatterDims N n C wf).window j a : ℕ)
          < ((⟨2, ![N, C]⟩ : Shape).size a : ℕ) := by
      intro a
      match a with
      | ⟨0, h0⟩ =>
        rw [hs0, hw0]
        show _ ∧ _ < ((N : ℕ) : ℤ)
        omega
      | ⟨1, h1⟩ =>
        rw [hs1, hw1]
        show _ ∧ _ < ((C : ℕ) : ℤ)
        omega
    rw [dif_pos hall]
    congr 1
    funext a
    refine Fin.ext ?_
    match a with
    | ⟨0, h0⟩ =>
      show ((rowScatterDims N n C wf).start j idx ⟨0, h0⟩
        + ((rowScatterDims N n C wf).window j ⟨0, h0⟩ : ℕ)).toNat = (i 0).val
      rw [hs0, hw0]
      omega
    | ⟨1, h1⟩ =>
      show ((rowScatterDims N n C wf).start j idx ⟨1, h1⟩
        + ((rowScatterDims N n C wf).window j ⟨1, h1⟩ : ℕ)).toNat = (i 1).val
      rw [hs1, hw1]
      omega

/-- THE ROW SCATTER-ADD AT AN INDEX, on the extended reals: the table's element there plus the sum over the update
    rows e of the update's element at (e, that column) when row e lands on that row, and of 0 when it does not. -/
theorem scatterAdd_rows_apply {N n C w : ℕ}
    (wf : ScatterDims.WF ⟨2, ![N, C]⟩ ⟨2, ![n, 1]⟩ ⟨2, ![n, C]⟩ [1] [0] [0] 1)
    (x : FVec Ideal ⟨2, ![N, C]⟩ .f32) (idx : IVec ⟨2, ![n, 1]⟩ w) (upd : FVec Ideal ⟨2, ![n, C]⟩ .f32)
    (i : (⟨2, ![N, C]⟩ : Shape).Idx) :
    Host.scatterAdd (F := Ideal) (φ := .f32) (rowScatterDims N n C wf) x idx upd i
      = x i + ∑ e : Fin n,
          if srow N (idx (ix2 e ⟨0, Nat.one_pos⟩)) = some ⟨(i 0).val, idx2_lt0 i⟩
          then upd (ix2 e ⟨(i 1).val, idx2_lt1 i⟩) else 0 := by
  show Ideal.hostScatterAdd (rowScatterDims N n C wf) x idx upd i = _
  unfold Ideal.hostScatterAdd
  congr 1
  rw [Finset.sum_filter, sum_idx2]
  refine Finset.sum_congr rfl fun e _ => ?_
  -- inside update row e: the landing test is the row test and the column test
  have key : ∀ b : Fin C, (rowScatterDims N n C wf).resultIdx? (ix2 e b) idx = some i
      ↔ srow N (idx (ix2 e ⟨0, Nat.one_pos⟩)) = some ⟨(i 0).val, idx2_lt0 i⟩ ∧ (i 1).val = b.val :=
    fun b => resultIdx_rows wf idx (ix2 e b) i
  by_cases hrow : srow N (idx (ix2 e ⟨0, Nat.one_pos⟩)) = some ⟨(i 0).val, idx2_lt0 i⟩
  · -- the row lands here: of its C elements the one in this column is added
    rw [if_pos hrow, Finset.sum_eq_single (⟨(i 1).val, idx2_lt1 i⟩ : Fin C)]
    · exact if_pos ((key ⟨(i 1).val, idx2_lt1 i⟩).mpr ⟨hrow, rfl⟩)
    · intro b _ hb
      exact if_neg fun h => hb (Fin.ext ((key b).mp h).2.symm)
    · intro h
      exact absurd (Finset.mem_univ _) h
  · -- the row lands elsewhere or nowhere: nothing of it is added
    rw [if_neg hrow]
    exact Finset.sum_eq_zero fun b _ => if_neg fun h => hrow ((key b).mp h).1

/-! ## Sums on the extended reals -/

/-- A finite nonnegative factor distributes over a finite sum of extended reals (the two-term law is Mathlib's
    EReal.right_distrib_of_nonneg_of_ne_top). -/
theorem sum_mul_of_nonneg_ne_top {ι : Type} (s : Finset ι) (f : ι → EReal) {d : EReal} (h0 : 0 ≤ d) (ht : d ≠ ⊤) :
    (∑ i ∈ s, f i) * d = ∑ i ∈ s, f i * d := by
  classical
  induction s using Finset.induction_on with
  | empty => simp
  | insert a s ha ih =>
    rw [Finset.sum_insert ha, Finset.sum_insert ha, EReal.right_distrib_of_nonneg_of_ne_top h0 ht, ih]

/-- The same for a sum of terms each present under a condition and 0 otherwise: the factor goes inside the
    condition. -/
theorem sum_ite_mul_of_nonneg_ne_top {ι : Type} [Fintype ι] (p : ι → Prop) [DecidablePred p] (f : ι → EReal)
    {d : EReal} (h0 : 0 ≤ d) (ht : d ≠ ⊤) :
    (∑ i, if p i then f i else 0) * d = ∑ i, if p i then f i * d else 0 := by
  rw [sum_mul_of_nonneg_ne_top _ _ h0 ht]
  refine Finset.sum_congr rfl fun i _ => ?_
  by_cases h : p i
  · rw [if_pos h, if_pos h]
  · rw [if_neg h, if_neg h, zero_mul]

/-- Position p of block c of a range of a blocks of b lies in the range of a * b. -/
theorem block_lt {a b : ℕ} (c : Fin a) (p : Fin b) : c.val * b + p.val < a * b :=
  calc c.val * b + p.val < c.val * b + b := Nat.add_lt_add_left p.isLt _
    _ = (c.val + 1) * b := (Nat.succ_mul _ _).symm
    _ ≤ a * b := Nat.mul_le_mul_right _ c.isLt

/-- A sum over Fin (a * b) is the sum over the a blocks of the sums over the b positions inside each block. -/
theorem sum_fin_mul {M : Type} [AddCommMonoid M] (a b : ℕ) (f : Fin (a * b) → M) :
    ∑ e : Fin (a * b), f e = ∑ c : Fin a, ∑ p : Fin b, f ⟨c.val * b + p.val, block_lt c p⟩ := by
  rw [← Equiv.sum_comp finProdFinEquiv f, Fintype.sum_prod_type]
  refine Finset.sum_congr rfl fun c _ => Finset.sum_congr rfl fun p _ => ?_
  congr 1
  refine Fin.ext ?_
  show p.val + b * c.val = c.val * b + p.val
  rw [Nat.mul_comm, Nat.add_comm]

/-- The reciprocal square root of an extended real at least 1 is a finite nonnegative number. -/
theorem rsqrt_nonneg_ne_top {x : EReal} (hx : 1 ≤ x) : 0 ≤ Ideal.rsqrt x ∧ Ideal.rsqrt x ≠ ⊤ := by
  induction x using EReal.rec with
  | bot => exact absurd hx (not_le.mpr (by exact_mod_cast EReal.bot_lt_coe 1))
  | top => exact ⟨by rw [Ideal.rsqrt_top], by rw [Ideal.rsqrt_top]; exact EReal.zero_ne_top⟩
  | coe r =>
    have hr : (1 : ℝ) ≤ r := by exact_mod_cast hx
    rw [Ideal.rsqrt_coe, if_neg (by linarith), if_neg (by linarith)]
    exact ⟨by exact_mod_cast inv_nonneg.mpr (Real.sqrt_nonneg r), EReal.coe_ne_top _⟩

end Idealize.ShloMosaic.Rows

end
-- ==== Proof.Spec.lean ====
/-
  THE VALUE BOTH PROGRAMS COMPUTE, row by row, on the extended reals.

  A graph layer followed by a gated recurrent update. Node r has a feature row X r and a state row H r (128 numbers
  each); edge e has a feature row E e (32 numbers), a source word and a target word. The layer sums, over the edges
  whose target word names node r, the message of the edge, a linear image (W, 160 rows) of the source node's row
  joined with the edge's row; adds a bias, a linear skip of the node's own row and a second bias; and clips at zero.
  The update then mixes that hidden row h with the state: z and r are logistic gates of a linear image of (h, H r),
  the candidate is the hyperbolic tangent of a linear image of (h, r * H r), and the result is z * H r + (1 - z) *
  candidate.

  The two programs differ in ONE place: the order of the edge sum and the message's linear image. One adds the
  messages (aggMsg: the sum over edges of the 160-term products); the other first adds the source rows and the edge
  rows into two tables and then takes the linear image of the sums (aggSum). Everything after the aggregate is one
  function, rowOut, of the aggregate row, the node's row and the state row.
-/
import Idealize.ShloMosaic.PureOps
import Idealize.ShloMosaic.PureOps.Ideal
import Idealize.ShloMosaic.PureOps.Ideal.Laws
import Idealize.ShloMosaic.Lib.ValueIdx
import proofs.«107878_j27410481283214_1_alg».proof.Proof.LibRows

noncomputable section

open scoped BigOperators

namespace Cert.Spec

open Idealize.ShloMosaic Idealize.ShloMosaic.ValueIdx Idealize.ShloMosaic.Rows

/-- The float word 0x3F800000 as an extended real. -/
def one : EReal := Ideal.ofBits .f32 0x3F800000#32

/-- That word denotes the number one. -/
theorem one_eq : one = 1 := by
  unfold one
  simp [Ideal.ofBits, Ideal.ieee, -EReal.coe_mul]
  norm_num

/-- Two rows of 128 laid end to end: a row of 256. -/
def join (a b : Fin 128 → EReal) (k : Fin 256) : EReal :=
  if h : k.val < 128 then a ⟨k.val, h⟩ else b ⟨k.val - 128, by have := k.isLt; omega⟩

/-- The weights and biases after the aggregate: the skip matrix and the two layer biases, and the three gates'
    matrices (256 rows: 128 for the hidden row, 128 for the state row) and biases. -/
structure Params where
  Wskip : Fin 128 → Fin 128 → EReal
  bconv : Fin 128 → EReal
  bskip : Fin 128 → EReal
  Wz : Fin 256 → Fin 128 → EReal
  bz : Fin 128 → EReal
  Wr : Fin 256 → Fin 128 → EReal
  br : Fin 128 → EReal
  Wh : Fin 256 → Fin 128 → EReal
  bh : Fin 128 → EReal

/-- The hidden row: aggregate plus bias plus the skip image of the node's row plus the second bias, clipped at 0. -/
def hid (P : Params) (agg xrow : Fin 128 → EReal) (j : Fin 128) : EReal :=
  max (agg j + P.bconv j + (∑ d : Fin 128, xrow d * P.Wskip d j) + P.bskip j) 0

/-- A linear image of a row of 256, plus a bias. -/
def lin (W : Fin 256 → Fin 128 → EReal) (b : Fin 128 → EReal) (v : Fin 256 → EReal) (j : Fin 128) : EReal :=
  (∑ k : Fin 256, v k * W k j) + b j

/-- The reset gate at column d. -/
def rgate (P : Params) (h hprev : Fin 128 → EReal) (d : Fin 128) : EReal :=
  Ideal.logistic (lin P.Wr P.br (join h hprev) d)

/-- The gated update of one row from its hidden row h and its state row. -/
def gru (P : Params) (h hprev : Fin 128 → EReal) (j : Fin 128) : EReal :=
  Ideal.logistic (lin P.Wz P.bz (join h hprev) j) * hprev j
    + (one - Ideal.logistic (lin P.Wz P.bz (join h hprev) j))
      * Ideal.tanh (lin P.Wh P.bh (join h (fun d => rgate P h hprev d * hprev d)) j)

/-- The whole row function after the aggregate. -/
def rowOut (P : Params) (agg xrow hprev : Fin 128 → EReal) (j : Fin 128) : EReal :=
  gru P (hid P agg xrow) hprev j

/-! ## The index words -/

/-- The source word of edge e as the gather reads it: row 0 of the index array, with 50000 added when negative. -/
def srcWord (ei : Fin 2 → Fin 800000 → BitVec 32) (e : Fin 800000) : BitVec 32 :=
  Scalar.select (IntOp.cmpi .slt (ei 0 e) 0#32) (IntOp.addi (ei 0 e) 50000#32) (ei 0 e)

/-- The target word of edge e: row 1 of the index array, as it is. -/
def dstWord (ei : Fin 2 → Fin 800000 → BitVec 32) (e : Fin 800000) : BitVec 32 := ei 1 e

theorem pos50000 : 0 < 50000 := by norm_num

/-- The source node's row, as gathered for edge e (the word clamped into the table). -/
def srcRow (X : Fin 50000 → Fin 128 → EReal) (src : Fin 800000 → BitVec 32) (e : Fin 800000) (d : Fin 128) : EReal :=
  X (grow 50000 pos50000 (src e)) d

/-- The message's input row of edge e: the source node's row joined with the edge's row. -/
def msgIn (X : Fin 50000 → Fin 128 → EReal) (E : Fin 800000 → Fin 32 → EReal) (src : Fin 800000 → BitVec 32)
    (e : Fin 800000) (k : Fin 160) : EReal :=
  if h : k.val < 128 then srcRow X src e ⟨k.val, h⟩ else E e ⟨k.val - 128, by have := k.isLt; omega⟩

/-- Messages first, then the edge sum: over the edges whose target word names row r, the 160-term linear image. -/
def aggMsg (X : Fin 50000 → Fin 128 → EReal) (E : Fin 800000 → Fin 32 → EReal) (W : Fin 160 → Fin 128 → EReal)
    (src dst : Fin 800000 → BitVec 32) (r : Fin 50000) (j : Fin 128) : EReal :=
  ∑ e : Fin 800000, if srow 50000 (dst e) = some r then ∑ k : Fin 160, msgIn X E src e k * W k j else 0

/-- The table of summed source rows. -/
def sumX (X : Fin 50000 → Fin 128 → EReal) (src dst : Fin 800000 → BitVec 32) (r : Fin 50000) (d : Fin 128) : EReal :=
  ∑ e : Fin 800000, if srow 50000 (dst e) = some r then srcRow X src e d else 0

/-- The table of summed edge rows. -/
def sumE (E : Fin 800000 → Fin 32 → EReal) (dst : Fin 800000 → BitVec 32) (r : Fin 50000) (d : Fin 32) : EReal :=
  ∑ e : Fin 800000, if srow 50000 (dst e) = some r then E e d else 0

/-- Edge sums first, then the linear image: the first 128 rows of W on the summed source rows, the last 32 on the
    summed edge rows. -/
def aggSum (X : Fin 50000 → Fin 128 → EReal) (E : Fin 800000 → Fin 32 → EReal) (W : Fin 160 → Fin 128 → EReal)
    (src dst : Fin 800000 → BitVec 32) (r : Fin 50000) (j : Fin 128) : EReal :=
  (∑ d : Fin 128, sumX X src dst r d * W ⟨d.val, by have := d.isLt; omega⟩ j)
    + (∑ d : Fin 32, sumE E dst r d * W ⟨128 + d.val, by have := d.isLt; omega⟩ j)

/-! ## The arrays as the programs hold them -/

/-- A rank-2 array as rows of columns. -/
def mat {n c : ℕ} (a : (⟨2, ![n, c]⟩ : Shape).Idx → EReal) : Fin n → Fin c → EReal := fun r d => a (ix2 r d)

/-- A rank-1 array as a row. -/
def vec {n : ℕ} (a : (⟨1, ![n]⟩ : Shape).Idx → EReal) : Fin n → EReal := fun d => a (ix1 d)

/-- A one-row rank-2 array as a row. -/
def row1 {n : ℕ} (a : (⟨2, ![1, n]⟩ : Shape).Idx → EReal) : Fin n → EReal := fun d => a (ix2 (0 : Fin 1) d)

/-- The index array as two rows of words. -/
def words (a : (⟨2, ![2, 800000]⟩ : Shape).Idx → BitVec 32) : Fin 2 → Fin 800000 → BitVec 32 := fun i e => a (ix2 i e)

/-- The weights after the aggregate, from the argument arrays. -/
def params (a5 : (⟨1, ![128]⟩ : Shape).Idx → EReal) (a6 : (⟨2, ![128, 128]⟩ : Shape).Idx → EReal)
    (a7 : (⟨1, ![128]⟩ : Shape).Idx → EReal) (a8 : (⟨2, ![256, 128]⟩ : Shape).Idx → EReal)
    (a9 : (⟨1, ![128]⟩ : Shape).Idx → EReal) (a10 : (⟨2, ![256, 128]⟩ : Shape).Idx → EReal)
    (a11 : (⟨1, ![128]⟩ : Shape).Idx → EReal) (a12 : (⟨2, ![256, 128]⟩ : Shape).Idx → EReal)
    (a13 : (⟨1, ![128]⟩ : Shape).Idx → EReal) : Params where
  Wskip := mat a6
  bconv := vec a5
  bskip := vec a7
  Wz := mat a8
  bz := vec a9
  Wr := mat a10
  br := vec a11
  Wh := mat a12
  bh := vec a13

/-- The result array when the edge sums come first (the tables, then their linear image). -/
def outSum (a0 : (⟨2, ![50000, 128]⟩ : Shape).Idx → EReal) (a1 : (⟨2, ![800000, 32]⟩ : Shape).Idx → EReal)
    (a2 : (⟨2, ![50000, 128]⟩ : Shape).Idx → EReal) (a3 : (⟨2, ![2, 800000]⟩ : Shape).Idx → BitVec 32)
    (a4 : (⟨2, ![160, 128]⟩ : Shape).Idx → EReal) (P : Params) : (⟨2, ![50000, 128]⟩ : Shape).Idx → EReal :=
  fun i => rowOut P (aggSum (mat a0) (mat a1) (mat a4) (srcWord (words a3)) (dstWord (words a3)) ⟨(i 0).val, idx2_lt0 i⟩)
    (mat a0 ⟨(i 0).val, idx2_lt0 i⟩) (mat a2 ⟨(i 0).val, idx2_lt0 i⟩) ⟨(i 1).val, idx2_lt1 i⟩

/-- The result array when the messages come first (each edge's linear image, then the edge sum). -/
def outMsg (a0 : (⟨2, ![50000, 128]⟩ : Shape).Idx → EReal) (a1 : (⟨2, ![800000, 32]⟩ : Shape).Idx → EReal)
    (a2 : (⟨2, ![50000, 128]⟩ : Shape).Idx → EReal) (a3 : (⟨2, ![2, 800000]⟩ : Shape).Idx → BitVec 32)
    (a4 : (⟨2, ![160, 128]⟩ : Shape).Idx → EReal) (P : Params) : (⟨2, ![50000, 128]⟩ : Shape).Idx → EReal :=
  fun i => rowOut P (aggMsg (mat a0) (mat a1) (mat a4) (srcWord (words a3)) (dstWord (words a3)) ⟨(i 0).val, idx2_lt0 i⟩)
    (mat a0 ⟨(i 0).val, idx2_lt0 i⟩) (mat a2 ⟨(i 0).val, idx2_lt0 i⟩) ⟨(i 1).val, idx2_lt1 i⟩

end Cert.Spec

end
-- ==== Proof.Words.lean ====
/-
  THE TWO INDEX COLUMNS AT AN INDEX. Both programs cut the [2, 800000] index array into its two rows, flatten each,
  wrap a negative source word by the table height, and stand each row up as an [800000, 1] column of start indices.
  Read at (e, 0), the source column is the wrapped word of edge e and the target column is the word of edge e as it
  is. Stated over the literal shapes and any proofs of the operations' side conditions, so that both programs' terms
  match them.
-/
import Idealize.ShloMosaic.Lib.Pipeline.Value
import Idealize.ShloMosaic.Lib.ValueLayout
import proofs.«107878_j27410481283214_1_alg».proof.Proof.Spec

noncomputable section

namespace Cert.Spec

open Idealize.ShloMosaic Idealize.ShloMosaic.ValueIdx

/-- The source column at (e, 0): row 0 of the index array at e, with 50000 added when it is negative. -/
theorem srcCol_apply (a3 : (⟨2, ![2, 800000]⟩ : Shape).Idx → BitVec 32)
    (hs : (⟨2, ![2, 800000]⟩ : Shape).Slices ![0, 0] ⟨2, ![1, 800000]⟩)
    (hc : (⟨2, ![1, 800000]⟩ : Shape).ShapeCasts ⟨1, ![800000]⟩)
    (hb0 : (⟨0, ![]⟩ : Shape).BroadcastsInDim ⟨1, ![800000]⟩ (![] : Fin 0 → Fin 1))
    (hb : (⟨1, ![800000]⟩ : Shape).BroadcastsInDim ⟨2, ![800000, 1]⟩ (![0] : Fin 1 → Fin 2)) (e : Fin 800000) :
    broadcastInDim ⟨2, ![800000, 1]⟩ ![0] hb
        (select
          (cmpi .slt (shapeCast ⟨1, ![800000]⟩ (extractStridedSlice ⟨2, ![1, 800000]⟩ ![0, 0] a3 hs) hc)
            (broadcastInDim ⟨1, ![800000]⟩ ![] hb0 (constantI ⟨0, ![]⟩ 32 0#32)))
          (addi (shapeCast ⟨1, ![800000]⟩ (extractStridedSlice ⟨2, ![1, 800000]⟩ ![0, 0] a3 hs) hc)
            (broadcastInDim ⟨1, ![800000]⟩ ![] hb0 (constantI ⟨0, ![]⟩ 32 50000#32)))
          (shapeCast ⟨1, ![800000]⟩ (extractStridedSlice ⟨2, ![1, 800000]⟩ ![0, 0] a3 hs) hc))
        (ix2 e (0 : Fin 1))
      = srcWord (words a3) e := by
  -- the flattened row 0 at e is the index array at (0, e): the flattening keeps the row-major position, the cut
  -- of row 0 shifts nothing
  have hrow : ∀ e : Fin 800000,
      shapeCast ⟨1, ![800000]⟩ (extractStridedSlice ⟨2, ![1, 800000]⟩ ![0, 0] a3 hs) hc (ix1 e)
        = a3 (ix2 (0 : Fin 2) e) := by
    intro e
    refine (shapeCast_apply (extractStridedSlice ⟨2, ![1, 800000]⟩ ![0, 0] a3 hs) hc (ix1 e) (ix2 (0 : Fin 1) e)
      (by rw [Shape.rowMajor_val_two, Shape.rowMajor_val_one]
          show 0 * 800000 + e.val = e.val
          omega)).trans ?_
    exact extractStridedSlice_apply ![0, 0] a3 hs (ix2 (0 : Fin 1) e) (ix2 (0 : Fin 2) e) (fun a => match a with
      | ⟨0, _⟩ => by show 0 = 0 + 0; rfl
      | ⟨1, _⟩ => by show e.val = 0 + e.val; omega)
  -- a scalar spread along the edges reads as the scalar everywhere
  have hconst : ∀ (c : BitVec 32) (e : Fin 800000),
      broadcastInDim ⟨1, ![800000]⟩ ![] hb0 (constantI ⟨0, ![]⟩ 32 c) (ix1 e) = c := by
    intro c e
    exact (broadcastInDim_apply (![] : Fin 0 → Fin 1) hb0 (constantI ⟨0, ![]⟩ 32 c) (ix1 e) ix0
      (fun a => a.elim0)).trans rfl
  -- the column at (e, 0) is the row at e
  refine (broadcastInDim_apply (![0] : Fin 1 → Fin 2) hb _ (ix2 e (0 : Fin 1)) (ix1 e) (fun a => match a with
    | ⟨0, _⟩ => by
      show e.val = if (800000 : Nat) = 1 then 0 else e.val
      rw [if_neg (by decide)])).trans ?_
  -- compare, add and choose act coordinate by coordinate
  show Scalar.select
      (IntOp.cmpi .slt (shapeCast ⟨1, ![800000]⟩ (extractStridedSlice ⟨2, ![1, 800000]⟩ ![0, 0] a3 hs) hc (ix1 e))
        (broadcastInDim ⟨1, ![800000]⟩ ![] hb0 (constantI ⟨0, ![]⟩ 32 0#32) (ix1 e)))
      (IntOp.addi (shapeCast ⟨1, ![800000]⟩ (extractStridedSlice ⟨2, ![1, 800000]⟩ ![0, 0] a3 hs) hc (ix1 e))
        (broadcastInDim ⟨1, ![800000]⟩ ![] hb0 (constantI ⟨0, ![]⟩ 32 50000#32) (ix1 e)))
      (shapeCast ⟨1, ![800000]⟩ (extractStridedSlice ⟨2, ![1, 800000]⟩ ![0, 0] a3 hs) hc (ix1 e))
    = srcWord (words a3) e
  rw [hrow e, hconst 0#32 e, hconst 50000#32 e]
  rfl

/-- The target column at (e, 0): row 1 of the index array at e. -/
theorem dstCol_apply (a3 : (⟨2, ![2, 800000]⟩ : Shape).Idx → BitVec 32)
    (hs : (⟨2, ![2, 800000]⟩ : Shape).Slices ![1, 0] ⟨2, ![1, 800000]⟩)
    (hc : (⟨2, ![1, 800000]⟩ : Shape).ShapeCasts ⟨1, ![800000]⟩)
    (hb : (⟨1, ![800000]⟩ : Shape).BroadcastsInDim ⟨2, ![800000, 1]⟩ (![0] : Fin 1 → Fin 2)) (e : Fin 800000) :
    broadcastInDim ⟨2, ![800000, 1]⟩ ![0] hb
        (shapeCast ⟨1, ![800000]⟩ (extractStridedSlice ⟨2, ![1, 800000]⟩ ![1, 0] a3 hs) hc) (ix2 e (0 : Fin 1))
      = dstWord (words a3) e := by
  -- the column at (e, 0) is the row at e
  refine (broadcastInDim_apply (![0] : Fin 1 → Fin 2) hb _ (ix2 e (0 : Fin 1)) (ix1 e) (fun a => match a with
    | ⟨0, _⟩ => by
      show e.val = if (800000 : Nat) = 1 then 0 else e.val
      rw [if_neg (by decide)])).trans ?_
  -- the flattening keeps the row-major position
  refine (shapeCast_apply (extractStridedSlice ⟨2, ![1, 800000]⟩ ![1, 0] a3 hs) hc (ix1 e) (ix2 (0 : Fin 1) e)
    (by rw [Shape.rowMajor_val_two, Shape.rowMajor_val_one]
        show 0 * 800000 + e.val = e.val
        omega)).trans ?_
  -- the cut of row 1 shifts the row coordinate by one
  exact extractStridedSlice_apply ![1, 0] a3 hs (ix2 (0 : Fin 1) e) (ix2 (1 : Fin 2) e) (fun a => match a with
    | ⟨0, _⟩ => by show 1 = 1 + 0; rfl
    | ⟨1, _⟩ => by show e.val = 0 + e.val; omega)

end Cert.Spec

end
-- ==== Proof.KernelHost.lean ====
/-
  THE ARRAYS THE KERNEL REGION FINDS, AT AN INDEX. Before the region the program builds, on the host, the two
  tables (the gathered source rows added by target row, the edge rows added by target row), cuts the message matrix
  into its first 128 and last 32 rows, and lays each bias out as a one-row array. Read at an index: the tables are
  the specification's sums over the edges that land on the row, the cuts are the matrix at the row (plus 128 for the
  second), the bias rows are the biases.
-/
import proofs.«107878_j27410481283214_1_alg».proof.Proof.Gen.KernelIdeal.Frame
import proofs.«107878_j27410481283214_1_alg».proof.Proof.Spec
import proofs.«107878_j27410481283214_1_alg».proof.Proof.Words
import Idealize.ShloMosaic.Lib.StableHlo.Run
import Idealize.ShloMosaic.Lib.Pipeline.Value

noncomputable section

open scoped BigOperators

namespace Cert.KernelIdeal.KValue

open Cert.KernelIdeal Cert.KernelIdeal.Gen
open Idealize.ShloMosaic Idealize.ShloMosaic.TcCoe Idealize.ShloMosaic.ValueIdx Idealize.ShloMosaic.Rows Idealize.SL.Sem

variable (m : (ℓ : Loc nD τ sig) → Buf (Elt Ideal) ℓ) (c : Dev nD)

/-- The node rows, the edge rows, the state rows, the index array and the message matrix as launched. -/
abbrev nodes : S50000x128.Idx → EReal := m ((c : Thread nD τ).loc main_arg0)
abbrev edges : S800000x32.Idx → EReal := m ((c : Thread nD τ).loc main_arg1)
abbrev states : S50000x128.Idx → EReal := m ((c : Thread nD τ).loc main_arg2)
abbrev eidx : S2x800000.Idx → BitVec 32 := m ((c : Thread nD τ).loc main_arg3)
abbrev wmsg : S160x128.Idx → EReal := m ((c : Thread nD τ).loc main_arg4)

/-- The arrays the region finds: the two tables, the two cuts of the message matrix, the five bias rows. -/
abbrev srcTab : S50000x128.Idx → EReal := V m c main_v13
abbrev edgeTab : S50000x32.Idx → EReal := V m c main_v16
abbrev wxCut : S128x128.Idx → EReal := V m c main_v17
abbrev weCut : S32x128.Idx → EReal := V m c main_v18
abbrev bconvRow : S1x128.Idx → EReal := V m c main_v19
abbrev bskipRow : S1x128.Idx → EReal := V m c main_v20
abbrev bzRow : S1x128.Idx → EReal := V m c main_v21
abbrev brRow : S1x128.Idx → EReal := V m c main_v22
abbrev bhRow : S1x128.Idx → EReal := V m c main_v23

/-- The target column of start indices, as the host builds it. -/
abbrev dstCol : S800000x1.Idx → BitVec 32 :=
  broadcastInDim S800000x1 ![0] bcast_S800000_S800000x1_0
    (shapeCast S800000 (extractStridedSlice S1x800000 ![1, 0] (eidx m c) slices_S2x800000_S1x800000_1_0) shapeCasts_S1x800000_S800000)

/-- The source column of start indices, as the host builds it (a negative word wrapped by 50000). -/
abbrev srcCol : S800000x1.Idx → BitVec 32 :=
  broadcastInDim S800000x1 ![0] bcast_S800000_S800000x1_0
    (select
      (cmpi .slt (shapeCast S800000 (extractStridedSlice S1x800000 ![0, 0] (eidx m c) slices_S2x800000_S1x800000_0_0) shapeCasts_S1x800000_S800000)
        (broadcastInDim S800000 ![] bcast_S_S800000 (constantI S_ 32 0#32)))
      (addi (shapeCast S800000 (extractStridedSlice S1x800000 ![0, 0] (eidx m c) slices_S2x800000_S1x800000_0_0) shapeCasts_S1x800000_S800000)
        (broadcastInDim S800000 ![] bcast_S_S800000 (constantI S_ 32 50000#32)))
      (shapeCast S800000 (extractStridedSlice S1x800000 ![0, 0] (eidx m c) slices_S2x800000_S1x800000_0_0) shapeCasts_S1x800000_S800000))

/-- The table of summed edge rows is the scatter-add of the edge rows into the zero table. -/
theorem edgeTable_eq : edgeTab m c = Host.scatterAdd (F := Ideal) (φ := .f32) scatter_S50000x32_S800000x1_S800000x32_1_0_0_1
        (broadcastInDim S50000x32 ![] bcast_S_S50000x32 (constant (F := Ideal) S_ .f32 0x00000000#32)) (dstCol m c) (edges m c) := by
  dsimp only [srcTab, edgeTab, Gen.V, Gen.hostOps0]
  after_results
  rfl

set_option maxHeartbeats 4000000 in
/-- The table of summed source rows is the scatter-add of the gathered rows into the zero table. -/
theorem srcTable_eq : srcTab m c
    = Host.scatterAdd (F := Ideal) (φ := .f32) scatter_S50000x128_S800000x1_S800000x128_1_0_0_1
        (broadcastInDim S50000x128 ![] bcast_S_S50000x128 (constant (F := Ideal) S_ .f32 0x00000000#32)) (dstCol m c)
        (Host.gather gather_S50000x128_S800000x1_S800000x128_1_0_n_n_0_1_1128 (nodes m c) (srcCol m c)) := by
  dsimp only [srcTab, edgeTab, Gen.V, Gen.hostOps0]
  after_results
  rfl

/-- The summed edge rows at (r, d). -/
theorem edgeTable_apply (r : Fin 50000) (d : Fin 32) :
    edgeTab m c (ix2 r d)
      = Cert.Spec.sumE (Cert.Spec.mat (edges m c)) (Cert.Spec.dstWord (Cert.Spec.words (eidx m c))) r d := by
  rw [edgeTable_eq]
  have hS : scatter_S50000x32_S800000x1_S800000x32_1_0_0_1
      = rowScatterDims 50000 800000 32 Gen.scatter_S50000x32_S800000x1_S800000x32_1_0_0_1_wf := rfl
  rw [hS, scatterAdd_rows_apply]
  have hz : (broadcastInDim S50000x32 ![] bcast_S_S50000x32 (constant (F := Ideal) S_ .f32 0x00000000#32)) (ix2 r d) = (0 : EReal) :=
    Ideal.ofBits_zero_f32
  rw [hz, zero_add]
  unfold Cert.Spec.sumE
  refine Finset.sum_congr rfl fun e _ => ?_
  rw [show dstCol m c (ix2 e ⟨0, Nat.one_pos⟩) = Cert.Spec.dstWord (Cert.Spec.words (eidx m c)) e from
    Cert.Spec.dstCol_apply (eidx m c) _ _ _ e]
  rfl

/-- The summed source rows at (r, d). -/
theorem srcTable_apply (r : Fin 50000) (d : Fin 128) :
    srcTab m c (ix2 r d)
      = Cert.Spec.sumX (Cert.Spec.mat (nodes m c)) (Cert.Spec.srcWord (Cert.Spec.words (eidx m c)))
          (Cert.Spec.dstWord (Cert.Spec.words (eidx m c))) r d := by
  rw [srcTable_eq]
  have hS : scatter_S50000x128_S800000x1_S800000x128_1_0_0_1
      = rowScatterDims 50000 800000 128 Gen.scatter_S50000x128_S800000x1_S800000x128_1_0_0_1_wf := rfl
  have hG : gather_S50000x128_S800000x1_S800000x128_1_0_n_n_0_1_1128
      = rowGatherDims 50000 800000 128 Gen.gather_S50000x128_S800000x1_S800000x128_1_0_n_n_0_1_1128_wf := rfl
  rw [hS, scatterAdd_rows_apply]
  have hz : (broadcastInDim S50000x128 ![] bcast_S_S50000x128 (constant (F := Ideal) S_ .f32 0x00000000#32)) (ix2 r d) = (0 : EReal) :=
    Ideal.ofBits_zero_f32
  rw [hz, zero_add]
  unfold Cert.Spec.sumX Cert.Spec.srcRow
  refine Finset.sum_congr rfl fun e _ => ?_
  rw [show dstCol m c (ix2 e ⟨0, Nat.one_pos⟩) = Cert.Spec.dstWord (Cert.Spec.words (eidx m c)) e from
    Cert.Spec.dstCol_apply (eidx m c) _ _ _ e]
  refine if_congr Iff.rfl ?_ rfl
  rw [hG, gather_rows_apply Cert.Spec.pos50000]
  rw [show srcCol m c (ix2 ⟨e.val, _⟩ ⟨0, Nat.one_pos⟩) = Cert.Spec.srcWord (Cert.Spec.words (eidx m c)) e from
    Cert.Spec.srcCol_apply (eidx m c) _ _ _ _ e]
  rfl

/-- The first 128 rows of the message matrix, at (d, j). -/
theorem wxCut_apply (d : Fin 128) (j : Fin 128) :
    wxCut m c (ix2 d j) = wmsg m c (ix2 ⟨d.val, by have := d.isLt; omega⟩ j) := by
  have e : wxCut m c = extractStridedSlice S128x128 ![0, 0] (wmsg m c) slices_S160x128_S128x128_0_0 := by
    dsimp only [wxCut, Gen.V, Gen.hostOps0]
    after_results
  rw [e]
  exact extractStridedSlice_apply ![0, 0] (wmsg m c) slices_S160x128_S128x128_0_0 (ix2 d j)
    (ix2 ⟨d.val, by have := d.isLt; omega⟩ j) (fun a => match a with
      | ⟨0, _⟩ => by show d.val = 0 + d.val; omega
      | ⟨1, _⟩ => by show j.val = 0 + j.val; omega)

/-- The last 32 rows of the message matrix, at (d, j). -/
theorem weCut_apply (d : Fin 32) (j : Fin 128) :
    weCut m c (ix2 d j) = wmsg m c (ix2 ⟨128 + d.val, by have := d.isLt; omega⟩ j) := by
  have e : weCut m c = extractStridedSlice S32x128 ![128, 0] (wmsg m c) slices_S160x128_S32x128_128_0 := by
    dsimp only [weCut, Gen.V, Gen.hostOps0]
    after_results
  rw [e]
  exact extractStridedSlice_apply ![128, 0] (wmsg m c) slices_S160x128_S32x128_128_0 (ix2 d j)
    (ix2 ⟨128 + d.val, by have := d.isLt; omega⟩ j) (fun a => match a with
      | ⟨0, _⟩ => by show 128 + d.val = 128 + d.val; rfl
      | ⟨1, _⟩ => by show j.val = 0 + j.val; omega)

/-- A bias laid out as one row, at (0, d): the bias at d. -/
theorem row_of_bias (b : S128.Idx → EReal) (d : Fin 128) :
    shapeCast S1x128 b shapeCasts_S128_S1x128 (ix2 (0 : Fin 1) d) = b (ix1 d) :=
  shapeCast_apply b shapeCasts_S128_S1x128 (ix2 (0 : Fin 1) d) (ix1 d)
    (by rewrite [Shape.rowMajor_val_two, Shape.rowMajor_val_one]; show d.val = 0 * 128 + d.val; omega)

theorem bconvRow_apply (d : Fin 128) : bconvRow m c (ix2 (0 : Fin 1) d) = (m ((c : Thread nD τ).loc main_arg5) : S128.Idx → EReal) (ix1 d) := by
  have e : bconvRow m c = shapeCast S1x128 (m ((c : Thread nD τ).loc main_arg5) : S128.Idx → EReal) shapeCasts_S128_S1x128 := by
    dsimp only [bconvRow, Gen.V, Gen.hostOps0]
    after_results
    rfl
  rw [e, row_of_bias]

theorem bskipRow_apply (d : Fin 128) : bskipRow m c (ix2 (0 : Fin 1) d) = (m ((c : Thread nD τ).loc main_arg7) : S128.Idx → EReal) (ix1 d) := by
  have e : bskipRow m c = shapeCast S1x128 (m ((c : Thread nD τ).loc main_arg7) : S128.Idx → EReal) shapeCasts_S128_S1x128 := by
    dsimp only [bskipRow, Gen.V, Gen.hostOps0]
    after_results
    rfl
  rw [e, row_of_bias]

theorem bzRow_apply (d : Fin 128) : bzRow m c (ix2 (0 : Fin 1) d) = (m ((c : Thread nD τ).loc main_arg9) : S128.Idx → EReal) (ix1 d) := by
  have e : bzRow m c = shapeCast S1x128 (m ((c : Thread nD τ).loc main_arg9) : S128.Idx → EReal) shapeCasts_S128_S1x128 := by
    dsimp only [bzRow, Gen.V, Gen.hostOps0]
    after_results
    rfl
  rw [e, row_of_bias]

theorem brRow_apply (d : Fin 128) : brRow m c (ix2 (0 : Fin 1) d) = (m ((c : Thread nD τ).loc main_arg11) : S128.Idx → EReal) (ix1 d) := by
  have e : brRow m c = shapeCast S1x128 (m ((c : Thread nD τ).loc main_arg11) : S128.Idx → EReal) shapeCasts_S128_S1x128 := by
    dsimp only [brRow, Gen.V, Gen.hostOps0]
    after_results
    rfl
  rw [e, row_of_bias]

theorem bhRow_apply (d : Fin 128) : bhRow m c (ix2 (0 : Fin 1) d) = (m ((c : Thread nD τ).loc main_arg13) : S128.Idx → EReal) (ix1 d) := by
  have e : bhRow m c = shapeCast S1x128 (m ((c : Thread nD τ).loc main_arg13) : S128.Idx → EReal) shapeCasts_S128_S1x128 := by
    dsimp only [bhRow, Gen.V, Gen.hostOps0]
    after_results
    rfl
  rw [e, row_of_bias]

end Cert.KernelIdeal.KValue

end
-- ==== Proof.LibDense.lean ====
/-
  DENSE PRODUCTS AND JOINED COLUMNS AT AN INDEX.

  A plain matrix product [M, K] x [K, N] (no batch axis; the left operand's axis 1 against the right operand's axis
  0) read at (r, c) is the sum over k of left (r, k) times right (k, c), whether it is the kernel's product into a
  zero accumulator or the host's product. Two arrays joined along the column axis, read at (p, k), are the first
  array there when k is below the first width and the second array at k less that width otherwise.
-/
import Idealize.ShloMosaic.PureOps
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Idealize.ShloMosaic.Dense

open Idealize.ShloMosaic Idealize.ShloMosaic.ValueIdx

/-- The contraction of a plain product at output index j, re-indexed by the one contracted coordinate. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 ⟨(j 0).val, idx2_lt0 j⟩ k) * r (ix2 k ⟨(j 1).val, idx2_lt1 j⟩) := by
  -- the contraction shape has one axis, of extent K: sum over its one coordinate instead
  rw [← Equiv.sum_comp (contrEquiv1 (DotDims.plain M K N) K rfl rfl).symm]
  refine Finset.sum_congr rfl fun k _ => ?_
  have ck := contrEquiv1_symm_val (DotDims.plain M K N) K rfl rfl k
  -- the left operand is read at (row of j, k)
  have hl : (DotDims.plain M K N).lhsIdx j ((contrEquiv1 (DotDims.plain M K N) K rfl rfl).symm k)
      = ix2 ⟨(j 0).val, idx2_lt0 j⟩ k := by
    funext a
    apply Fin.ext
    match a with
    | ⟨0, _⟩ => rfl
    | ⟨1, _⟩ =>
      rw [show (⟨1, _⟩ : Fin 2) = (1 : Fin 2) from rfl,
        (DotDims.plain M K N).lhsIdx_val_of_single (cl := (1 : Fin 2)) rfl]
      exact ck
  -- the right operand is read at (k, column of j)
  have hr : (DotDims.plain M K N).rhsIdx j ((contrEquiv1 (DotDims.plain M K N) K rfl rfl).symm k)
      = ix2 k ⟨(j 1).val, idx2_lt1 j⟩ := by
    funext a
    apply Fin.ext
    match a with
    | ⟨0, _⟩ =>
      rw [show (⟨0, _⟩ : Fin 2) = (0 : Fin 2) from rfl,
        (DotDims.plain M K N).rhsIdx_val_of_single (cr := (0 : Fin 2)) rfl]
      exact ck
    | ⟨1, _⟩ => rfl
  rw [hl, hr]

/-- The kernel's plain product into the zero accumulator, at (p, c). -/
theorem matmul_plain_zero_apply {M K N : ℕ} {φ₁ φ₂ : FTy} (prec : Option ContractPrecision)
    (l : FVec Ideal ⟨2, ![M, K]⟩ φ₁) (r : FVec Ideal ⟨2, ![K, N]⟩ φ₂) (p : Fin M) (c : Fin N) :
    matmul (DotDims.plain M K N) prec l r (constant ⟨2, ![M, N]⟩ .f32 0x00000000#32) (ix2 p c)
      = ∑ k : Fin K, l (ix2 p k) * r (ix2 k c) := by
  -- the kernel's product into the zero accumulator is the contraction's sum alone
  show FloatOps.matmul (DotDims.plain M K N) prec l r (constant ⟨2, ![M, N]⟩ .f32 0x00000000#32) (ix2 p c) = _
  rw [Ideal.matmul_constant_zero_apply, plain_sum]
  -- the coordinates of (p, c) are p and c
  rfl

/-- The host's plain product at (p, c). -/
theorem dotGeneral_plain_apply {M K N : ℕ} {φ₁ φ₂ : FTy} (prec : Option ContractPrecision)
    (l : FVec Ideal ⟨2, ![M, K]⟩ φ₁) (r : FVec Ideal ⟨2, ![K, N]⟩ φ₂) (p : Fin M) (c : Fin N) :
    Host.dotGeneral (DotDims.plain M K N) prec l r (ix2 p c) = ∑ k : Fin K, l (ix2 p k) * r (ix2 k c) := by
  -- the host's product is the same contraction onto zero
  show FloatOps.dotGeneral (DotDims.plain M K N) prec .single l r (ix2 p c) = _
  rw [Ideal.dotGeneral_apply, plain_sum]
  -- the coordinates of (p, c) are p and c
  rfl

/-- Two arrays of n rows joined along the columns, read at (p, k). -/
theorem concat_cols_apply {α : Type} {n c₁ c₂ c : ℕ} (hc : c₁ + c₂ = c)
    (a : (⟨2, ![n, c₁]⟩ : Shape).Idx → α) (b : (⟨2, ![n, c₂]⟩ : Shape).Idx → α)
    (h : Shape.Concatenates [(⟨2, ![n, c₁]⟩ : Shape), ⟨2, ![n, c₂]⟩] ⟨2, ![n, c]⟩ 1) (p : Fin n) (k : Fin c) :
    concatenate ⟨2, ![n, c]⟩ 1 [⟨⟨2, ![n, c₁]⟩, a⟩, ⟨⟨2, ![n, c₂]⟩, b⟩] h (ix2 p k)
      = if hk : k.val < c₁ then a (ix2 p ⟨k.val, hk⟩) else b (ix2 p ⟨k.val - c₁, by have := k.isLt; omega⟩) := by
  by_cases hk : k.val < c₁
  · -- the column falls in the first array: same coordinates there
    rw [dif_pos hk]
    exact concatenate_pair_apply_left (t := ⟨2, ![n, c]⟩) (s₁ := ⟨2, ![n, c₁]⟩) (s₂ := ⟨2, ![n, c₂]⟩) (1 : Fin 2) a b h
      (ix2 p k) rfl (ix2 p ⟨k.val, hk⟩) (fun d => by match d with | ⟨0, _⟩ => rfl | ⟨1, _⟩ => rfl)
  · -- the column falls in the second array: same row, the column less the first width
    rw [dif_neg hk]
    exact concatenate_pair_apply_right (t := ⟨2, ![n, c]⟩) (s₁ := ⟨2, ![n, c₁]⟩) (s₂ := ⟨2, ![n, c₂]⟩) (1 : Fin 2) a b h
      (ix2 p k) rfl rfl (ix2 p ⟨k.val - c₁, by have := k.isLt; omega⟩)
      (fun d hd => by
        match d, hd with
        | ⟨0, _⟩, _ => rfl
        | ⟨1, _⟩, hd => exact absurd rfl hd)
      (by show (k.val - c₁) + c₁ = k.val; omega)

end Idealize.ShloMosaic.Dense

end
-- ==== Proof.KernelPay.lean ====
/-
  THE KERNEL BODY'S STORE AT AN INDEX. One grid point holds 2000 rows. The body forms the aggregate of each row as
  two products (the summed source rows against the first 128 rows of the message matrix, the summed edge rows
  against its last 32), then the hidden row and the gated update, all row by row: the stored block at (p, q) is the
  row function of row p of the input blocks. The casts to the short float format are the identity on the extended
  reals, a product into the zero accumulator is the plain sum, and the joined columns read as the join of the rows.
-/
import proofs.«107878_j27410481283214_1_alg».proof.Proof.Gen.KernelIdeal.Frame
import proofs.«107878_j27410481283214_1_alg».proof.Proof.Spec
import proofs.«107878_j27410481283214_1_alg».proof.Proof.LibDense
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

open scoped BigOperators

namespace Cert.KernelIdeal.KValue

open Cert.KernelIdeal Cert.KernelIdeal.Gen
open Idealize.ShloMosaic Idealize.ShloMosaic.TcCoe Idealize.ShloMosaic.ValueIdx Idealize.ShloMosaic.Dense

/-- A logistic at an index is the logistic of the element. -/
theorem logistic_apply {s : Shape} {φ : FTy} (a : FVec Ideal s φ) (i : s.Idx) : logistic a i = Ideal.logistic (a i) := rfl

/-- A hyperbolic tangent at an index is the hyperbolic tangent of the element. -/
theorem tanh_apply {s : Shape} {φ : FTy} (a : FVec Ideal s φ) (i : s.Idx) : tanh a i = Ideal.tanh (a i) := rfl

/-- Two blocks of 2000 rows of 128 joined along the columns, read at (p, k): the join of their rows p. -/
theorem join_cols (a b : FVec Ideal S2000x128 .f32) (p : Fin 2000) (k : Fin 256) :
    concatenate S2000x256 1 [⟨S2000x128, a⟩, ⟨S2000x128, b⟩] concatenates_S2000x128_S2000x128_S2000x256_d1 (ix2 p k)
      = Cert.Spec.join (fun d => a (ix2 p d)) (fun d => b (ix2 p d)) k := by
  unfold Cert.Spec.join
  exact concat_cols_apply (c₁ := 128) (c₂ := 128) (c := 256) rfl a b concatenates_S2000x128_S2000x128_S2000x256_d1 p k

/-- The hidden block at (p, j): the two products of the aggregate added, the bias row, the skip product of row p,
    the second bias row, and the maximum with zero. The casts to the short format are the identity, each product
    into the zero accumulator is the plain sum, and a one-row bias broadcast over the rows reads its one row. -/
theorem pay2_apply (v0 : Vec Ideal S2000x128 .f32) (v3 : Vec Ideal S2000x32 .f32) (v6 : Vec Ideal S2000x128 .f32)
    (v9 : Vec Ideal S128x128 .f32) (v12 : Vec Ideal S32x128 .f32) (v15 : Vec Ideal S128x128 .f32)
    (v21 : Vec Ideal S1x128 .f32) (v26 : Vec Ideal S1x128 .f32) (p : Fin 2000) (j : Fin 128) :
    k0_pay2 v0 v3 v6 v9 v12 v15 v21 v26 (ix2 p j)
      = max (((∑ d : Fin 128, v0 (ix2 p d) * v9 (ix2 d j)) + (∑ d : Fin 32, v3 (ix2 p d) * v12 (ix2 d j)))
          + v21 (ix2 (0 : Fin 1) j) + (∑ d : Fin 128, v6 (ix2 p d) * v15 (ix2 d j)) + v26 (ix2 (0 : Fin 1) j)) 0 := by
  unfold k0_pay2
  -- the three products are plain: [2000, K] by [K, 128]
  have hD1 : dot_S2000x128_S128x128_S2000x128_1_0_0_1_n_n = DotDims.plain 2000 128 128 := rfl
  have hD2 : dot_S2000x32_S32x128_S2000x128_1_0_0_1_n_n = DotDims.plain 2000 32 128 := rfl
  rw [hD1, hD2]
  -- a cast of a shape to itself is the identity
  simp only [shapeCast_self]
  -- the maximum and the four sums are pointwise; the products are sums over the contracted column; the biases read row 0
  rw [maximumf_apply, addf_apply, addf_apply, addf_apply, addf_apply, broadcast_apply,
    matmul_plain_zero_apply, matmul_plain_zero_apply, matmul_plain_zero_apply,
    broadcastTo_1b_ab_apply, broadcastTo_1b_ab_apply]
  -- the format casts are the identity and the zero word is zero
  simp only [truncf_apply, Ideal.ofBits_def, Ideal.ofBits_zero_f32]

/-- The joined block at (p, k): the hidden block's row p joined with the state block's row p. -/
theorem pay3_apply (v0 : Vec Ideal S2000x128 .f32) (v3 : Vec Ideal S2000x32 .f32) (v6 : Vec Ideal S2000x128 .f32)
    (v8 : Vec Ideal S2000x128 .f32) (v9 : Vec Ideal S128x128 .f32) (v12 : Vec Ideal S32x128 .f32) (v15 : Vec Ideal S128x128 .f32)
    (v21 : Vec Ideal S1x128 .f32) (v26 : Vec Ideal S1x128 .f32) (p : Fin 2000) (k : Fin 256) :
    k0_pay3 v0 v3 v6 v8 v9 v12 v15 v21 v26 (ix2 p k)
      = Cert.Spec.join (fun d => k0_pay2 v0 v3 v6 v9 v12 v15 v21 v26 (ix2 p d)) (fun d => v8 (ix2 p d)) k := by
  unfold k0_pay3
  rw [truncf_apply]
  exact join_cols _ _ p k

/-- The stored block at (p, q) from a hidden block h, a joined block hh and the state block s: with z the logistic
    of row p of hh against the first gate matrix plus its bias, the value is z * s + (1 - z) * tanh of the linear
    image, by the third matrix plus its bias, of row p of h joined with (the logistic of row p of hh against the
    second matrix plus its bias) times row p of s. -/
theorem pay1_apply (v8 : Vec Ideal S2000x128 .f32) (v31 : FVec Ideal S2000x128 .f32) (v33 : FVec Ideal S2000x256 .bf16)
    (v34 v36 : Vec Ideal S256x128 .f32) (v39 v45 : Vec Ideal S1x128 .f32) (v53 : Vec Ideal S256x128 .f32)
    (v56 : Vec Ideal S1x128 .f32) (p : Fin 2000) (q : Fin 128) :
    k0_pay1 v8 v31 v33 v34 v36 v39 v45 v53 v56 (ix2 p q)
      = Ideal.logistic ((∑ k : Fin 256, v33 (ix2 p k) * v34 (ix2 k q)) + v39 (ix2 (0 : Fin 1) q)) * v8 (ix2 p q)
        + (Cert.Spec.one - Ideal.logistic ((∑ k : Fin 256, v33 (ix2 p k) * v34 (ix2 k q)) + v39 (ix2 (0 : Fin 1) q)))
          * Ideal.tanh ((∑ k : Fin 256, Cert.Spec.join (fun d => v31 (ix2 p d))
              (fun d => Ideal.logistic ((∑ k' : Fin 256, v33 (ix2 p k') * v36 (ix2 k' d)) + v45 (ix2 (0 : Fin 1) d))
                * v8 (ix2 p d)) k * v53 (ix2 k q)) + v56 (ix2 (0 : Fin 1) q)) := by
  unfold k0_pay1
  -- the three products are plain: [2000, 256] by [256, 128]
  have hD : dot_S2000x256_S256x128_S2000x128_1_0_0_1_n_n = DotDims.plain 2000 256 128 := rfl
  rw [hD]
  -- the word of the number one, as the specification names it
  unfold Cert.Spec.one
  -- every operation but the products, the bias broadcasts and the join is pointwise; those three read as above
  simp only [shapeCast_self, addf_apply, mulf_apply, subf_apply, logistic_apply, tanh_apply, broadcast_apply,
    matmul_plain_zero_apply, broadcastTo_1b_ab_apply, truncf_apply, join_cols, Ideal.ofBits_def]

/-- What the body leaves in the output window's buffer, read at (p, q): the row function of row p of the blocks
    (x0: summed source rows, x1: summed edge rows, x2: node rows, x3: state rows) and of the resident weights. -/
theorem body_apply (x0 : Vec Ideal S2000x128 .f32) (x1 : Vec Ideal S2000x32 .f32) (x2 : Vec Ideal S2000x128 .f32) (x3 : Vec Ideal S2000x128 .f32)
    (x4 : Vec Ideal S128x128 .f32) (x5 : Vec Ideal S32x128 .f32) (x6 : Vec Ideal S1x128 .f32) (x7 : Vec Ideal S128x128 .f32) (x8 : Vec Ideal S1x128 .f32)
    (x9 : Vec Ideal S256x128 .f32) (x10 : Vec Ideal S1x128 .f32) (x11 : Vec Ideal S256x128 .f32) (x12 : Vec Ideal S1x128 .f32)
    (x13 : Vec Ideal S256x128 .f32) (x14 : Vec Ideal S1x128 .f32) (p : Fin 2000) (q : Fin 128) :
    out0_15 x0 x1 x2 x3 x4 x5 x6 x7 x8 x9 x10 x11 x12 x13 x14 (ix2 p q)
      = Cert.Spec.rowOut
          { Wskip := Cert.Spec.mat x7, bconv := Cert.Spec.row1 x6, bskip := Cert.Spec.row1 x8,
            Wz := Cert.Spec.mat x9, bz := Cert.Spec.row1 x10, Wr := Cert.Spec.mat x11, br := Cert.Spec.row1 x12,
            Wh := Cert.Spec.mat x13, bh := Cert.Spec.row1 x14 }
          (fun j => (∑ d : Fin 128, x0 (ix2 p d) * x4 (ix2 d j)) + (∑ d : Fin 32, x1 (ix2 p d) * x5 (ix2 d j)))
          (fun d => x2 (ix2 p d)) (fun d => x3 (ix2 p d)) q := by
  -- the one store covers the whole buffer from offset (0, 0), and every load reads its whole block
  have hz : (![0, 0] : Fin 2 → Nat) = fun _ => 0 := by
    funext a
    match a with
    | ⟨0, _⟩ => rfl
    | ⟨1, _⟩ => rfl
  unfold out0_15
  rw [View.canon_unit_zero hz]
  simp only [View.ld_unit_zero (S := S2000x128) hz, View.ld_unit_zero (S := S2000x32) hz,
    View.ld_unit_zero (S := S128x128) hz, View.ld_unit_zero (S := S32x128) hz, View.ld_unit_zero (S := S1x128) hz,
    View.ld_unit_zero (S := S256x128) hz]
  -- the gated update over the hidden and joined blocks, then those two blocks read along row p
  rw [pay1_apply]
  simp only [pay3_apply, pay2_apply]
  -- what remains is the row function with its definitions opened
  rfl

end Cert.KernelIdeal.KValue

end
-- ==== Proof.KernelValue.lean ====
/-
  THE KERNEL'S RESULT ARRAY. The region runs 25 points; point t stages rows 2000 t … 2000 t + 1999 of the two tables,
  of the node rows and of the state rows, and the resident weights whole, and writes back rows 2000 t … 2000 t + 1999
  of the result. What it writes at (p, q) is the row function of row 2000 t + p: the sums-first aggregate (the tables
  against the two cuts of the message matrix), the node's row and the state's row. The 25 blocks tile the array, so
  the array ends holding the sums-first result at every index.
-/
import proofs.«107878_j27410481283214_1_alg».proof.Proof.Gen.KernelIdeal.Value
import proofs.«107878_j27410481283214_1_alg».proof.Proof.KernelHost
import proofs.«107878_j27410481283214_1_alg».proof.Proof.KernelPay

noncomputable section

open scoped BigOperators

namespace Cert.KernelIdeal.KValue

open Cert.KernelIdeal Cert.KernelIdeal.Gen
open Idealize.ShloMosaic Idealize.ShloMosaic.TcCoe Idealize.ShloMosaic.ValueIdx Idealize.ShloMosaic.Rows Idealize.SL.Sem
open Idealize.ShloMosaic.Pipeline (Dat)

variable (m : (ℓ : Loc nD τ sig) → Buf (Elt Ideal) ℓ) (ρ : Dev nD → PrngReg) (c : Dev nD)

/-! ## The printed index maps over the 25 points -/

theorem idx_row0 : ∀ t : Fin cfg0.N, win0_0.index t (0 : Fin 2) = t.val ∧ win0_0.index t (1 : Fin 2) = 0 :=
  (by decide +kernel : ∀ t : Fin grid0.N, _)
theorem idx_row1 : ∀ t : Fin cfg0.N, win0_1.index t (0 : Fin 2) = t.val ∧ win0_1.index t (1 : Fin 2) = 0 :=
  (by decide +kernel : ∀ t : Fin grid0.N, _)
theorem idx_row2 : ∀ t : Fin cfg0.N, win0_2.index t (0 : Fin 2) = t.val ∧ win0_2.index t (1 : Fin 2) = 0 :=
  (by decide +kernel : ∀ t : Fin grid0.N, _)
theorem idx_row3 : ∀ t : Fin cfg0.N, win0_3.index t (0 : Fin 2) = t.val ∧ win0_3.index t (1 : Fin 2) = 0 :=
  (by decide +kernel : ∀ t : Fin grid0.N, _)
theorem idx_row15 : ∀ t : Fin cfg0.N, win0_15.index t (0 : Fin 2) = t.val ∧ win0_15.index t (1 : Fin 2) = 0 :=
  (by decide +kernel : ∀ t : Fin grid0.N, _)
theorem idx_res4 : ∀ t : Fin cfg0.N, win0_4.index t (0 : Fin 2) = 0 ∧ win0_4.index t (1 : Fin 2) = 0 :=
  (by decide +kernel : ∀ t : Fin grid0.N, _)
theorem idx_res5 : ∀ t : Fin cfg0.N, win0_5.index t (0 : Fin 2) = 0 ∧ win0_5.index t (1 : Fin 2) = 0 :=
  (by decide +kernel : ∀ t : Fin grid0.N, _)
theorem idx_res6 : ∀ t : Fin cfg0.N, win0_6.index t (0 : Fin 2) = 0 ∧ win0_6.index t (1 : Fin 2) = 0 :=
  (by decide +kernel : ∀ t : Fin grid0.N, _)
theorem idx_res7 : ∀ t : Fin cfg0.N, win0_7.index t (0 : Fin 2) = 0 ∧ win0_7.index t (1 : Fin 2) = 0 :=
  (by decide +kernel : ∀ t : Fin grid0.N, _)
theorem idx_res8 : ∀ t : Fin cfg0.N, win0_8.index t (0 : Fin 2) = 0 ∧ win0_8.index t (1 : Fin 2) = 0 :=
  (by decide +kernel : ∀ t : Fin grid0.N, _)
theorem idx_res9 : ∀ t : Fin cfg0.N, win0_9.index t (0 : Fin 2) = 0 ∧ win0_9.index t (1 : Fin 2) = 0 :=
  (by decide +kernel : ∀ t : Fin grid0.N, _)
theorem idx_res10 : ∀ t : Fin cfg0.N, win0_10.index t (0 : Fin 2) = 0 ∧ win0_10.index t (1 : Fin 2) = 0 :=
  (by decide +kernel : ∀ t : Fin grid0.N, _)
theorem idx_res11 : ∀ t : Fin cfg0.N, win0_11.index t (0 : Fin 2) = 0 ∧ win0_11.index t (1 : Fin 2) = 0 :=
  (by decide +kernel : ∀ t : Fin grid0.N, _)
theorem idx_res12 : ∀ t : Fin cfg0.N, win0_12.index t (0 : Fin 2) = 0 ∧ win0_12.index t (1 : Fin 2) = 0 :=
  (by decide +kernel : ∀ t : Fin grid0.N, _)
theorem idx_res13 : ∀ t : Fin cfg0.N, win0_13.index t (0 : Fin 2) = 0 ∧ win0_13.index t (1 : Fin 2) = 0 :=
  (by decide +kernel : ∀ t : Fin grid0.N, _)
theorem idx_res14 : ∀ t : Fin cfg0.N, win0_14.index t (0 : Fin 2) = 0 ∧ win0_14.index t (1 : Fin 2) = 0 :=
  (by decide +kernel : ∀ t : Fin grid0.N, _)

theorem lt25 (t : Fin cfg0.N) : t.val < 25 := Nat.lt_of_lt_of_eq t.isLt (N_0 : grid0.N = 25)

/-! ## The blocks a point stages -/

abbrev blk0 (t : Fin cfg0.N) : S2000x128.Idx → EReal := iblk m c 0 t
abbrev blk1 (t : Fin cfg0.N) : S2000x32.Idx → EReal := iblk m c 1 t
abbrev blk2 (t : Fin cfg0.N) : S2000x128.Idx → EReal := iblk m c 2 t
abbrev blk3 (t : Fin cfg0.N) : S2000x128.Idx → EReal := iblk m c 3 t
abbrev blk4 (t : Fin cfg0.N) : S128x128.Idx → EReal := iblk m c 4 t
abbrev blk5 (t : Fin cfg0.N) : S32x128.Idx → EReal := iblk m c 5 t
abbrev blk6 (t : Fin cfg0.N) : S1x128.Idx → EReal := iblk m c 6 t
abbrev blk7 (t : Fin cfg0.N) : S128x128.Idx → EReal := iblk m c 7 t
abbrev blk8 (t : Fin cfg0.N) : S1x128.Idx → EReal := iblk m c 8 t
abbrev blk9 (t : Fin cfg0.N) : S256x128.Idx → EReal := iblk m c 9 t
abbrev blk10 (t : Fin cfg0.N) : S1x128.Idx → EReal := iblk m c 10 t
abbrev blk11 (t : Fin cfg0.N) : S256x128.Idx → EReal := iblk m c 11 t
abbrev blk12 (t : Fin cfg0.N) : S1x128.Idx → EReal := iblk m c 12 t
abbrev blk13 (t : Fin cfg0.N) : S256x128.Idx → EReal := iblk m c 13 t
abbrev blk14 (t : Fin cfg0.N) : S1x128.Idx → EReal := iblk m c 14 t

/-- Any array read through window 0's block at point t, at (p, d): the array at row 2000 t + p. -/
theorem rows0_read (arr : S50000x128.Idx → EReal) (t : Fin cfg0.N) (p : Fin 2000) (d : Fin 128)
    (hr : t.val * 2000 + p.val < 50000) :
    ((cfg0.win 0).blk t).view.read (Elt Ideal) arr (ix2 p d) = arr (ix2 ⟨t.val * 2000 + p.val, hr⟩ d) := by
  have hi := idx_row0 t
  rw [View.read_apply]
  refine congrArg arr (funext fun a => Fin.ext ?_)
  match a with
  | ⟨0, _⟩ => show win0_0.index t 0 * 2000 + 1 * p.val = t.val * 2000 + p.val; rw [hi.1]; omega
  | ⟨1, _⟩ => show win0_0.index t 1 * 128 + 1 * d.val = d.val; rw [hi.2]; omega

/-- Window 0's block at point t is rows 2000 t … 2000 t + 1999 of its array. -/
theorem blk0_apply (t : Fin cfg0.N) (p : Fin 2000) (d : Fin 128) (hr : t.val * 2000 + p.val < 50000) :
    blk0 m c t (ix2 p d) = srcTab m c (ix2 ⟨t.val * 2000 + p.val, hr⟩ d) :=
  rows0_read (srcTab m c) t p d hr

/-- Any array read through window 1's block at point t, at (p, d): the array at row 2000 t + p. -/
theorem rows1_read (arr : S50000x32.Idx → EReal) (t : Fin cfg0.N) (p : Fin 2000) (d : Fin 32)
    (hr : t.val * 2000 + p.val < 50000) :
    ((cfg0.win 1).blk t).view.read (Elt Ideal) arr (ix2 p d) = arr (ix2 ⟨t.val * 2000 + p.val, hr⟩ d) := by
  have hi := idx_row1 t
  rw [View.read_apply]
  refine congrArg arr (funext fun a => Fin.ext ?_)
  match a with
  | ⟨0, _⟩ => show win0_1.index t 0 * 2000 + 1 * p.val = t.val * 2000 + p.val; rw [hi.1]; omega
  | ⟨1, _⟩ => show win0_1.index t 1 * 32 + 1 * d.val = d.val; rw [hi.2]; omega

/-- Window 1's block at point t is rows 2000 t … 2000 t + 1999 of its array. -/
theorem blk1_apply (t : Fin cfg0.N) (p : Fin 2000) (d : Fin 32) (hr : t.val * 2000 + p.val < 50000) :
    blk1 m c t (ix2 p d) = edgeTab m c (ix2 ⟨t.val * 2000 + p.val, hr⟩ d) :=
  rows1_read (edgeTab m c) t p d hr

/-- Any array read through window 2's block at point t, at (p, d): the array at row 2000 t + p. -/
theorem rows2_read (arr : S50000x128.Idx → EReal) (t : Fin cfg0.N) (p : Fin 2000) (d : Fin 128)
    (hr : t.val * 2000 + p.val < 50000) :
    ((cfg0.win 2).blk t).view.read (Elt Ideal) arr (ix2 p d) = arr (ix2 ⟨t.val * 2000 + p.val, hr⟩ d) := by
  have hi := idx_row2 t
  rw [View.read_apply]
  refine congrArg arr (funext fun a => Fin.ext ?_)
  match a with
  | ⟨0, _⟩ => show win0_2.index t 0 * 2000 + 1 * p.val = t.val * 2000 + p.val; rw [hi.1]; omega
  | ⟨1, _⟩ => show win0_2.index t 1 * 128 + 1 * d.val = d.val; rw [hi.2]; omega

/-- Window 2's block at point t is rows 2000 t … 2000 t + 1999 of its array. -/
theorem blk2_apply (t : Fin cfg0.N) (p : Fin 2000) (d : Fin 128) (hr : t.val * 2000 + p.val < 50000) :
    blk2 m c t (ix2 p d) = nodes m c (ix2 ⟨t.val * 2000 + p.val, hr⟩ d) :=
  (rows2_read (V m c main_arg0) t p d hr).trans (congrFun (V_main_arg0 m c) _)

/-- Any array read through window 3's block at point t, at (p, d): the array at row 2000 t + p. -/
theorem rows3_read (arr : S50000x128.Idx → EReal) (t : Fin cfg0.N) (p : Fin 2000) (d : Fin 128)
    (hr : t.val * 2000 + p.val < 50000) :
    ((cfg0.win 3).blk t).view.read (Elt Ideal) arr (ix2 p d) = arr (ix2 ⟨t.val * 2000 + p.val, hr⟩ d) := by
  have hi := idx_row3 t
  rw [View.read_apply]
  refine congrArg arr (funext fun a => Fin.ext ?_)
  match a with
  | ⟨0, _⟩ => show win0_3.index t 0 * 2000 + 1 * p.val = t.val * 2000 + p.val; rw [hi.1]; omega
  | ⟨1, _⟩ => show win0_3.index t 1 * 128 + 1 * d.val = d.val; rw [hi.2]; omega

/-- Window 3's block at point t is rows 2000 t … 2000 t + 1999 of its array. -/
theorem blk3_apply (t : Fin cfg0.N) (p : Fin 2000) (d : Fin 128) (hr : t.val * 2000 + p.val < 50000) :
    blk3 m c t (ix2 p d) = states m c (ix2 ⟨t.val * 2000 + p.val, hr⟩ d) :=
  (rows3_read (V m c main_arg2) t p d hr).trans (congrFun (V_main_arg2 m c) _)

/-- Window 4 holds its whole array at every point. -/
theorem blk4_eq (t : Fin cfg0.N) : blk4 m c t = wxCut m c := by
  have hi := idx_res4 t
  funext y
  unfold blk4 iblk
  rw [View.read_apply]
  show V m c main_v17 _ = V m c main_v17 y
  congr 1
  funext a
  apply Fin.ext
  match a with
  | ⟨0, _⟩ => show win0_4.index t 0 * 128 + 1 * (y 0).val = (y 0).val; rw [hi.1]; omega
  | ⟨1, _⟩ => show win0_4.index t 1 * 128 + 1 * (y 1).val = (y 1).val; rw [hi.2]; omega

/-- Window 5 holds its whole array at every point. -/
theorem blk5_eq (t : Fin cfg0.N) : blk5 m c t = weCut m c := by
  have hi := idx_res5 t
  funext y
  unfold blk5 iblk
  rw [View.read_apply]
  show V m c main_v18 _ = V m c main_v18 y
  congr 1
  funext a
  apply Fin.ext
  match a with
  | ⟨0, _⟩ => show win0_5.index t 0 * 32 + 1 * (y 0).val = (y 0).val; rw [hi.1]; omega
  | ⟨1, _⟩ => show win0_5.index t 1 * 128 + 1 * (y 1).val = (y 1).val; rw [hi.2]; omega

/-- Window 6 holds its whole array at every point. -/
theorem blk6_eq (t : Fin cfg0.N) : blk6 m c t = bconvRow m c := by
  have hi := idx_res6 t
  funext y
  unfold blk6 iblk
  rw [View.read_apply]
  show V m c main_v19 _ = V m c main_v19 y
  congr 1
  funext a
  apply Fin.ext
  match a with
  | ⟨0, _⟩ => show win0_6.index t 0 * 1 + 1 * (y 0).val = (y 0).val; rw [hi.1]; omega
  | ⟨1, _⟩ => show win0_6.index t 1 * 128 + 1 * (y 1).val = (y 1).val; rw [hi.2]; omega

/-- Window 7 holds its whole array at every point. -/
theorem blk7_eq (t : Fin cfg0.N) : blk7 m c t = (m ((c : Thread nD τ).loc main_arg6) : S128x128.Idx → EReal) := by
  have hi := idx_res7 t
  funext y
  unfold blk7 iblk
  rw [View.read_apply]
  show V m c main_arg6 _ = m ((c : Thread nD τ).loc main_arg6) y
  rw [V_main_arg6]
  congr 1
  funext a
  apply Fin.ext
  match a with
  | ⟨0, _⟩ => show win0_7.index t 0 * 128 + 1 * (y 0).val = (y 0).val; rw [hi.1]; omega
  | ⟨1, _⟩ => show win0_7.index t 1 * 128 + 1 * (y 1).val = (y 1).val; rw [hi.2]; omega

/-- Window 8 holds its whole array at every point. -/
theorem blk8_eq (t : Fin cfg0.N) : blk8 m c t = bskipRow m c := by
  have hi := idx_res8 t
  funext y
  unfold blk8 iblk
  rw [View.read_apply]
  show V m c main_v20 _ = V m c main_v20 y
  congr 1
  funext a
  apply Fin.ext
  match a with
  | ⟨0, _⟩ => show win0_8.index t 0 * 1 + 1 * (y 0).val = (y 0).val; rw [hi.1]; omega
  | ⟨1, _⟩ => show win0_8.index t 1 * 128 + 1 * (y 1).val = (y 1).val; rw [hi.2]; omega

/-- Window 9 holds its whole array at every point. -/
theorem blk9_eq (t : Fin cfg0.N) : blk9 m c t = (m ((c : Thread nD τ).loc main_arg8) : S256x128.Idx → EReal) := by
  have hi := idx_res9 t
  funext y
  unfold blk9 iblk
  rw [View.read_apply]
  show V m c main_arg8 _ = m ((c : Thread nD τ).loc main_arg8) y
  rw [V_main_arg8]
  congr 1
  funext a
  apply Fin.ext
  match a with
  | ⟨0, _⟩ => show win0_9.index t 0 * 256 + 1 * (y 0).val = (y 0).val; rw [hi.1]; omega
  | ⟨1, _⟩ => show win0_9.index t 1 * 128 + 1 * (y 1).val = (y 1).val; rw [hi.2]; omega

/-- Window 10 holds its whole array at every point. -/
theorem blk10_eq (t : Fin cfg0.N) : blk10 m c t = bzRow m c := by
  have hi := idx_res10 t
  funext y
  unfold blk10 iblk
  rw [View.read_apply]
  show V m c main_v21 _ = V m c main_v21 y
  congr 1
  funext a
  apply Fin.ext
  match a with
  | ⟨0, _⟩ => show win0_10.index t 0 * 1 + 1 * (y 0).val = (y 0).val; rw [hi.1]; omega
  | ⟨1, _⟩ => show win0_10.index t 1 * 128 + 1 * (y 1).val = (y 1).val; rw [hi.2]; omega

/-- Window 11 holds its whole array at every point. -/
theorem blk11_eq (t : Fin cfg0.N) : blk11 m c t = (m ((c : Thread nD τ).loc main_arg10) : S256x128.Idx → EReal) := by
  have hi := idx_res11 t
  funext y
  unfold blk11 iblk
  rw [View.read_apply]
  show V m c main_arg10 _ = m ((c : Thread nD τ).loc main_arg10) y
  rw [V_main_arg10]
  congr 1
  funext a
  apply Fin.ext
  match a with
  | ⟨0, _⟩ => show win0_11.index t 0 * 256 + 1 * (y 0).val = (y 0).val; rw [hi.1]; omega
  | ⟨1, _⟩ => show win0_11.index t 1 * 128 + 1 * (y 1).val = (y 1).val; rw [hi.2]; omega

/-- Window 12 holds its whole array at every point. -/
theorem blk12_eq (t : Fin cfg0.N) : blk12 m c t = brRow m c := by
  have hi := idx_res12 t
  funext y
  unfold blk12 iblk
  rw [View.read_apply]
  show V m c main_v22 _ = V m c main_v22 y
  congr 1
  funext a
  apply Fin.ext
  match a with
  | ⟨0, _⟩ => show win0_12.index t 0 * 1 + 1 * (y 0).val = (y 0).val; rw [hi.1]; omega
  | ⟨1, _⟩ => show win0_12.index t 1 * 128 + 1 * (y 1).val = (y 1).val; rw [hi.2]; omega

/-- Window 13 holds its whole array at every point. -/
theorem blk13_eq (t : Fin cfg0.N) : blk13 m c t = (m ((c : Thread nD τ).loc main_arg12) : S256x128.Idx → EReal) := by
  have hi := idx_res13 t
  funext y
  unfold blk13 iblk
  rw [View.read_apply]
  show V m c main_arg12 _ = m ((c : Thread nD τ).loc main_arg12) y
  rw [V_main_arg12]
  congr 1
  funext a
  apply Fin.ext
  match a with
  | ⟨0, _⟩ => show win0_13.index t 0 * 256 + 1 * (y 0).val = (y 0).val; rw [hi.1]; omega
  | ⟨1, _⟩ => show win0_13.index t 1 * 128 + 1 * (y 1).val = (y 1).val; rw [hi.2]; omega

/-- Window 14 holds its whole array at every point. -/
theorem blk14_eq (t : Fin cfg0.N) : blk14 m c t = bhRow m c := by
  have hi := idx_res14 t
  funext y
  unfold blk14 iblk
  rw [View.read_apply]
  show V m c main_v23 _ = V m c main_v23 y
  congr 1
  funext a
  apply Fin.ext
  match a with
  | ⟨0, _⟩ => show win0_14.index t 0 * 1 + 1 * (y 0).val = (y 0).val; rw [hi.1]; omega
  | ⟨1, _⟩ => show win0_14.index t 1 * 128 + 1 * (y 1).val = (y 1).val; rw [hi.2]; omega

/-! ## What the kernel's result array is to hold -/

/-- The sums-first result of the argument arrays as launched. -/
abbrev result : S50000x128.Idx → EReal :=
  Cert.Spec.outSum (nodes m c) (edges m c) (states m c) (eidx m c) (wmsg m c)
    (Cert.Spec.params (m ((c : Thread nD τ).loc main_arg5) : S128.Idx → EReal)
      (m ((c : Thread nD τ).loc main_arg6) : S128x128.Idx → EReal)
      (m ((c : Thread nD τ).loc main_arg7) : S128.Idx → EReal)
      (m ((c : Thread nD τ).loc main_arg8) : S256x128.Idx → EReal)
      (m ((c : Thread nD τ).loc main_arg9) : S128.Idx → EReal)
      (m ((c : Thread nD τ).loc main_arg10) : S256x128.Idx → EReal)
      (m ((c : Thread nD τ).loc main_arg11) : S128.Idx → EReal)
      (m ((c : Thread nD τ).loc main_arg12) : S256x128.Idx → EReal)
      (m ((c : Thread nD τ).loc main_arg13) : S128.Idx → EReal))

/-- What point t leaves in the output buffer at (p, q) is the result at row 2000 t + p, column q. -/
theorem point_apply (t : Fin cfg0.N) (p : Fin 2000) (q : Fin 128) (hr : t.val * 2000 + p.val < 50000) :
    out0_15 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t) (ix2 p q)
      = result m c (ix2 ⟨t.val * 2000 + p.val, hr⟩ q) := by
  rw [body_apply]
  have hagg : (fun j : Fin 128 => (∑ d : Fin 128, blk0 m c t (ix2 p d) * blk4 m c t (ix2 d j))
        + (∑ d : Fin 32, blk1 m c t (ix2 p d) * blk5 m c t (ix2 d j)))
      = Cert.Spec.aggSum (Cert.Spec.mat (nodes m c)) (Cert.Spec.mat (edges m c)) (Cert.Spec.mat (wmsg m c))
          (Cert.Spec.srcWord (Cert.Spec.words (eidx m c))) (Cert.Spec.dstWord (Cert.Spec.words (eidx m c)))
          ⟨t.val * 2000 + p.val, hr⟩ := by
    funext j
    unfold Cert.Spec.aggSum
    refine congrArg₂ (· + ·) ?_ ?_
    · refine Finset.sum_congr rfl fun d _ => ?_
      rw [blk0_apply m c t p d hr, blk4_eq, wxCut_apply, srcTable_apply]
      rfl
    · refine Finset.sum_congr rfl fun d _ => ?_
      rw [blk1_apply m c t p d hr, blk5_eq, weCut_apply, edgeTable_apply]
      rfl
  have hx : (fun d : Fin 128 => blk2 m c t (ix2 p d)) = Cert.Spec.mat (nodes m c) ⟨t.val * 2000 + p.val, hr⟩ :=
    funext fun d => blk2_apply m c t p d hr
  have hh : (fun d : Fin 128 => blk3 m c t (ix2 p d)) = Cert.Spec.mat (states m c) ⟨t.val * 2000 + p.val, hr⟩ :=
    funext fun d => blk3_apply m c t p d hr
  have hb6 : Cert.Spec.row1 (blk6 m c t) = Cert.Spec.vec (m ((c : Thread nD τ).loc main_arg5) : S128.Idx → EReal) := by
    rw [blk6_eq]; exact funext fun d => bconvRow_apply m c d
  have hb8 : Cert.Spec.row1 (blk8 m c t) = Cert.Spec.vec (m ((c : Thread nD τ).loc main_arg7) : S128.Idx → EReal) := by
    rw [blk8_eq]; exact funext fun d => bskipRow_apply m c d
  have hb10 : Cert.Spec.row1 (blk10 m c t) = Cert.Spec.vec (m ((c : Thread nD τ).loc main_arg9) : S128.Idx → EReal) := by
    rw [blk10_eq]; exact funext fun d => bzRow_apply m c d
  have hb12 : Cert.Spec.row1 (blk12 m c t) = Cert.Spec.vec (m ((c : Thread nD τ).loc main_arg11) : S128.Idx → EReal) := by
    rw [blk12_eq]; exact funext fun d => brRow_apply m c d
  have hb14 : Cert.Spec.row1 (blk14 m c t) = Cert.Spec.vec (m ((c : Thread nD τ).loc main_arg13) : S128.Idx → EReal) := by
    rw [blk14_eq]; exact funext fun d => bhRow_apply m c d
  rw [hagg, hx, hh, hb6, hb8, hb10, hb12, hb14, blk7_eq, blk9_eq, blk11_eq, blk13_eq]
  rfl

/-! ## From the blocks to the array -/

/-- Writing back an uncut block writes the buffer's contents as they are. -/
theorem cut_apply (t : Fin cfg0.N) (X : S2000x128.Idx → EReal) (y : S2000x128.Idx) :
    (cfg0.win 15).cut (grid0.coords t) X y = X y := rfl

/-- The array index of position y of point t's output block: row 2000 t + y 0, column y 1. -/
theorem emb15 (t : Fin cfg0.N) (y : S2000x128.Idx) (hr : t.val * 2000 + (y 0).val < 50000) :
    ((cfg0.win 15).blk t).view.emb y = ix2 ⟨t.val * 2000 + (y 0).val, hr⟩ ⟨(y 1).val, idx2_lt1 y⟩ := by
  have hi := idx_row15 t
  funext a
  apply Fin.ext
  match a with
  | ⟨0, _⟩ => show win0_15.index t 0 * 2000 + 1 * (y 0).val = t.val * 2000 + (y 0).val; rw [hi.1]; omega
  | ⟨1, _⟩ => show win0_15.index t 1 * 128 + 1 * (y 1).val = (y 1).val; rw [hi.2]; omega

/-- Buffer contents X whose element (p, q) is G at row 2000 t + p, column q, written back at point t, are block t
    of G. -/
theorem flushed_of_point (G : S50000x128.Idx → EReal) (X : S2000x128.Idx → EReal) (t : Fin cfg0.N)
    (h : ∀ (p : Fin 2000) (q : Fin 128) (hr : t.val * 2000 + p.val < 50000), X (ix2 p q) = G (ix2 ⟨t.val * 2000 + p.val, hr⟩ q)) :
    (cfg0.win 15).cut (grid0.coords t) X = ((cfg0.win 15).blk t).view.read (Elt Ideal) G := by
  have ht := lt25 t
  funext y
  have hy0 : (y 0).val < 2000 := idx2_lt0 (n0 := 2000) (n1 := 128) y
  have hy1 : (y 1).val < 128 := idx2_lt1 (n0 := 2000) (n1 := 128) y
  have hr : t.val * 2000 + (y 0).val < 50000 := by omega
  rw [cut_apply]
  show X y = G (((cfg0.win 15).blk t).view.emb y)
  rw [emb15 t y hr]
  exact (congrArg X (eq_ix2 (n0 := 2000) (n1 := 128) y)).trans (h ⟨(y 0).val, hy0⟩ ⟨(y 1).val, hy1⟩ hr)

/-- What point t writes back is block t of the result. -/
theorem flushed_eq (t : Fin cfg0.N) :
    (dats m 0 c).flushed 15 t = ((cfg0.win 15).blk t).view.read (Elt Ideal) (result m c) := by
  rw [Cert.KernelIdeal.Value.flushed15]
  exact flushed_of_point (result m c)
    (out0_15 (F := Ideal) (blk0 m c t) (blk1 m c t) (blk2 m c t) (blk3 m c t) (blk4 m c t) (blk5 m c t) (blk6 m c t) (blk7 m c t) (blk8 m c t) (blk9 m c t) (blk10 m c t) (blk11 m c t) (blk12 m c t) (blk13 m c t) (blk14 m c t)) t
    (fun p q hr => point_apply m c t p q hr)

/-- An index of the array is in point t's block iff each coordinate is in the block's range on its axis. -/
theorem mem_blk (t : Fin cfg0.N) (i : S50000x128.Idx) :
    i ∈ ((cfg0.win 15).blk t).view.set ↔ ∀ a : Fin 2, win0_15.index t a * S2000x128.size a ≤ (i a).val
      ∧ (i a).val < win0_15.index t a * S2000x128.size a + S2000x128.size a := by
  show i ∈ ((View.whole main_v24).slice (win0_15.rect t)).set ↔ _
  rw [View.set_slice_whole, Rect.mem_set_unit]
  exact Iff.rfl

/-- Every index of the array lies in the block of the point that holds its row: point (row / 2000). -/
theorem cover (i : S50000x128.Idx) :
    ∃ t : Fin cfg0.N, (cfg0.win 15).flush t = true ∧ i ∈ ((cfg0.win 15).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have hi := idx_row15 t
  refine ⟨t, flush0_15 t, ?_⟩
  rw [mem_blk]
  intro a
  match a with
  | ⟨0, _⟩ =>
    show win0_15.index t 0 * 2000 ≤ (i 0).val ∧ (i 0).val < win0_15.index t 0 * 2000 + 2000
    rw [hi.1]
    show (i 0).val / 2000 * 2000 ≤ (i 0).val ∧ (i 0).val < (i 0).val / 2000 * 2000 + 2000
    omega
  | ⟨1, _⟩ =>
    show win0_15.index t 1 * 128 ≤ (i 1).val ∧ (i 1).val < win0_15.index t 1 * 128 + 128
    rw [hi.2]
    omega

/-- The result array after the run. -/
theorem final : (dats m 0 c).arrAt 15 cfg0.N = result m c :=
  (dats m 0 c).arrAt_eq_of_cover 15 (result m c) (fun t _ => flushed_eq m c t) (cover)

/-- The kernel's run, read: the result array holds the sums-first result of the arguments, which are unchanged. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩)
    (Cert.KernelIdeal.Value.run_blocks m ρ)

end Cert.KernelIdeal.KValue

end
-- ==== Proof.RefAgg.lean ====
/-
  THE REFERENCE'S AGGREGATE AT AN INDEX: the scatter-add of the per-edge messages into the zero table, read at
  (r, j), is the sum over the edges whose target word names row r of the edge's 160-term product: the gathered
  source row joined with the edge row, against column j of the message matrix.

  The stage is read from the outside in. The scatter-add at (r, j) is the zero table's entry plus the sum over the
  edges of the edge's message at column j when the edge's target word names row r. The message of edge e at column j
  is the 160-term product of the joined row of e with column j of the message matrix. The joined row at k is the
  gathered source row below column 128 and the edge's own row from there on, and the gathered row is the node table
  at the row the edge's source word names. Each reading is a small lemma over explicit coordinates.
-/
import proofs.«107878_j27410481283214_1_alg».proof.Proof.Gen.ReferenceIdeal.Read
import proofs.«107878_j27410481283214_1_alg».proof.Proof.Spec
import proofs.«107878_j27410481283214_1_alg».proof.Proof.LibDense
import proofs.«107878_j27410481283214_1_alg».proof.Proof.Words

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.Rows Idealize.ShloMosaic.Dense

/-- The target column of start indices at (e, 0) is the target word of edge e. -/
theorem agg_dst_at (x3 : (⟨S2x800000, .i32⟩ : BufTy).Contents (Elt Ideal)) (e : Fin 800000) :
    val_main_v14 (F := Ideal) x3 (ix2 e ⟨0, Nat.one_pos⟩) = Cert.Spec.dstWord (Cert.Spec.words x3) e := by
  unfold val_main_v14 val_main_v3 val_main_v2
  exact Cert.Spec.dstCol_apply x3 _ _ _ e

/-- The source column of start indices at (e, 0) is the source word of edge e, wrapped by the table height when
    negative. -/
theorem agg_src_at (x3 : (⟨S2x800000, .i32⟩ : BufTy).Contents (Elt Ideal)) (e : Fin 800000) :
    val_main_v9 (F := Ideal) x3 (ix2 e ⟨0, Nat.one_pos⟩) = Cert.Spec.srcWord (Cert.Spec.words x3) e := by
  unfold val_main_v9 val_main_v8 val_main_v5 val_main_v7 val_main_v1 val_main_v0 val_main_v4 val_main_v6
    val_main_c val_main_c_0
  exact Cert.Spec.srcCol_apply x3 _ _ _ _ e

/-- The gathered rows at (e, d): the node table at the row the source word of edge e names, column d. -/
theorem agg_gath_at (x0 : (⟨S50000x128, .f32⟩ : BufTy).Contents (Elt Ideal))
    (x3 : (⟨S2x800000, .i32⟩ : BufTy).Contents (Elt Ideal)) (e : Fin 800000) (d : Fin 128) :
    val_main_v10 (F := Ideal) x0 x3 (ix2 e d)
      = x0 (ix2 (grow 50000 Cert.Spec.pos50000 (val_main_v9 (F := Ideal) x3 (ix2 e ⟨0, Nat.one_pos⟩))) d) := by
  unfold val_main_v10
  have hG : gather_S50000x128_S800000x1_S800000x128_1_0_n_n_0_1_1128
      = rowGatherDims 50000 800000 128 Facts₀.gather_S50000x128_S800000x1_S800000x128_1_0_n_n_0_1_1128_wf := rfl
  rw [hG]
  exact gather_rows_apply Cert.Spec.pos50000 _ x0 (val_main_v9 (F := Ideal) x3) (ix2 e d)

/-- The joined rows at (e, k): the gathered row below column 128, the edge row from column 128 on. -/
theorem agg_join_at (x0 : (⟨S50000x128, .f32⟩ : BufTy).Contents (Elt Ideal))
    (x1 : (⟨S800000x32, .f32⟩ : BufTy).Contents (Elt Ideal))
    (x3 : (⟨S2x800000, .i32⟩ : BufTy).Contents (Elt Ideal)) (e : Fin 800000) (k : Fin 160) :
    val_main_v11 (F := Ideal) x0 x1 x3 (ix2 e k)
      = if hk : k.val < 128 then val_main_v10 (F := Ideal) x0 x3 (ix2 e ⟨k.val, hk⟩)
        else x1 (ix2 e ⟨k.val - 128, by have := k.isLt; omega⟩) := by
  unfold val_main_v11
  exact concat_cols_apply (c₁ := 128) (c₂ := 32) rfl _ _ _ e k

/-- The joined row of edge e at k is the message's input row of the specification. -/
theorem agg_in_at (x0 : (⟨S50000x128, .f32⟩ : BufTy).Contents (Elt Ideal))
    (x1 : (⟨S800000x32, .f32⟩ : BufTy).Contents (Elt Ideal))
    (x3 : (⟨S2x800000, .i32⟩ : BufTy).Contents (Elt Ideal)) (e : Fin 800000) (k : Fin 160) :
    val_main_v11 (F := Ideal) x0 x1 x3 (ix2 e k)
      = Cert.Spec.msgIn (Cert.Spec.mat x0) (Cert.Spec.mat x1) (Cert.Spec.srcWord (Cert.Spec.words x3)) e k := by
  rw [agg_join_at]
  unfold Cert.Spec.msgIn
  by_cases hk : k.val < 128
  · -- a column of the source node's row
    rw [dif_pos hk, dif_pos hk, agg_gath_at, agg_src_at]
    rfl
  · -- a column of the edge's own row
    rw [dif_neg hk, dif_neg hk]
    rfl

/-- The per-edge message at (e, j): the 160-term product of the joined row of edge e with column j of the message
    matrix. -/
theorem agg_msg_at (x0 : (⟨S50000x128, .f32⟩ : BufTy).Contents (Elt Ideal))
    (x1 : (⟨S800000x32, .f32⟩ : BufTy).Contents (Elt Ideal))
    (x3 : (⟨S2x800000, .i32⟩ : BufTy).Contents (Elt Ideal))
    (x4 : (⟨S160x128, .f32⟩ : BufTy).Contents (Elt Ideal)) (e : Fin 800000) (j : Fin 128) :
    val_main_v12 (F := Ideal) x0 x1 x3 x4 (ix2 e j)
      = ∑ k : Fin 160, val_main_v11 (F := Ideal) x0 x1 x3 (ix2 e k) * x4 (ix2 k j) := by
  rw [val_main_v12_apply]
  refine Finset.sum_congr rfl fun k _ => ?_
  -- the left operand is read at (e, k), the right at (k, j)
  have hl : lidx_main_v12 (ix2 e j) k = ix2 e k := by
    funext a
    match a with
    | ⟨0, _⟩ => rfl
    | ⟨1, _⟩ => rfl
  have hr : ridx_main_v12 (ix2 e j) k = ix2 k j := by
    funext a
    match a with
    | ⟨0, _⟩ => rfl
    | ⟨1, _⟩ => rfl
  rw [hl, hr]

/-- The table the messages are added into is zero everywhere. -/
theorem agg_zero_at (i : S50000x128.Idx) : val_main_v13 (F := Ideal) i = 0 := by
  rw [val_main_v13_apply, val_main_cst_apply]
  exact Ideal.ofBits_zero_f32

/-- The aggregate stage of the reference at index i is the messages-first aggregate of the argument arrays. -/
theorem ref_agg (x0 : (⟨S50000x128, .f32⟩ : BufTy).Contents (Elt Ideal)) (x1 : (⟨S800000x32, .f32⟩ : BufTy).Contents (Elt Ideal)) (x3 : (⟨S2x800000, .i32⟩ : BufTy).Contents (Elt Ideal)) (x4 : (⟨S160x128, .f32⟩ : BufTy).Contents (Elt Ideal)) (i : S50000x128.Idx) :
    val_main_v15 (F := Ideal) x0 x1 x3 x4 i
      = Cert.Spec.aggMsg (Cert.Spec.mat x0) (Cert.Spec.mat x1) (Cert.Spec.mat x4)
          (Cert.Spec.srcWord (Cert.Spec.words x3)) (Cert.Spec.dstWord (Cert.Spec.words x3))
          ⟨(i 0).val, idx2_lt0 i⟩ ⟨(i 1).val, idx2_lt1 i⟩ := by
  unfold val_main_v15
  -- the scatter's dimension numbers are those of adding rows into a table
  have hS : scatter_S50000x128_S800000x1_S800000x128_1_0_0_1
      = rowScatterDims 50000 800000 128 Facts₀.scatter_S50000x128_S800000x1_S800000x128_1_0_0_1_wf := rfl
  rw [hS, scatterAdd_rows_apply, agg_zero_at, zero_add]
  unfold Cert.Spec.aggMsg
  refine Finset.sum_congr rfl fun e _ => ?_
  -- edge e lands on row r exactly when its target word names r; what it adds is its message
  rw [agg_dst_at]
  refine if_congr Iff.rfl ?_ rfl
  rw [agg_msg_at]
  refine Finset.sum_congr rfl fun k _ => ?_
  rw [agg_in_at]
  rfl

end Cert.ReferenceIdeal.RefValue

end
-- ==== Proof.RefTail.lean ====
/-
  THE REFERENCE AFTER ITS AGGREGATE, AT AN INDEX: bias, skip product, second bias and the clip at zero give the
  hidden row; the two logistic gates (spelled as 1 / (1 + exp (-x))), the candidate and the final mix are the gated
  update of that row with the state row. Every stage of row r reads only row r of the stages before it, so the
  result at (r, j) is the row function of the aggregate's row r, the node's row r and the state's row r.
-/
import proofs.«107878_j27410481283214_1_alg».proof.Proof.Gen.ReferenceIdeal.Read
import proofs.«107878_j27410481283214_1_alg».proof.Proof.Spec
import proofs.«107878_j27410481283214_1_alg».proof.Proof.LibDense

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.Rows Idealize.ShloMosaic.Dense

section Stages

variable (x0 : (⟨S50000x128, .f32⟩ : BufTy).Contents (Elt Ideal)) (x1 : (⟨S800000x32, .f32⟩ : BufTy).Contents (Elt Ideal))
  (x2 : (⟨S50000x128, .f32⟩ : BufTy).Contents (Elt Ideal)) (x3 : (⟨S2x800000, .i32⟩ : BufTy).Contents (Elt Ideal))
  (x4 : (⟨S160x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal))
  (x8 : (⟨S256x128, .f32⟩ : BufTy).Contents (Elt Ideal)) (x9 : (⟨S128, .f32⟩ : BufTy).Contents (Elt Ideal))
  (x10 : (⟨S256x128, .f32⟩ : BufTy).Contents (Elt Ideal)) (x11 : (⟨S128, .f32⟩ : BufTy).Contents (Elt Ideal))
  (x12 : (⟨S256x128, .f32⟩ : BufTy).Contents (Elt Ideal)) (x13 : (⟨S128, .f32⟩ : BufTy).Contents (Elt Ideal))

-- the weights after the aggregate, from the argument arrays
local notation "PRM" => Cert.Spec.params x5 x6 x7 x8 x9 x10 x11 x12 x13
-- the hidden row of node r: the row function's first step on the aggregate's row r and the node's row r
local notation "HROW" r:max => Cert.Spec.hid (Cert.Spec.params x5 x6 x7 x8 x9 x10 x11 x12 x13) (fun j : Fin 128 => val_main_v15 (F := Ideal) x0 x1 x3 x4 (ix2 r j)) (Cert.Spec.mat x0 r)

/-! ## Where the products and the biases read

  A product's element (r, j) reads the left operand along row r and the right operand down column j; a bias
  spread over the rows reads its entry j. -/

theorem lidx19 (r : Fin 50000) (j : Fin 128) (k : Fin 128) : lidx_main_v19 (ix2 r j) k = ix2 r k := by
  funext a; match a with | ⟨0, _⟩ => rfl | ⟨1, _⟩ => rfl
theorem ridx19 (r : Fin 50000) (j : Fin 128) (k : Fin 128) : ridx_main_v19 (ix2 r j) k = ix2 k j := by
  funext a; match a with | ⟨0, _⟩ => rfl | ⟨1, _⟩ => rfl
theorem lidx26 (r : Fin 50000) (j : Fin 128) (k : Fin 256) : lidx_main_v26 (ix2 r j) k = ix2 r k := by
  funext a; match a with | ⟨0, _⟩ => rfl | ⟨1, _⟩ => rfl
theorem ridx26 (r : Fin 50000) (j : Fin 128) (k : Fin 256) : ridx_main_v26 (ix2 r j) k = ix2 k j := by
  funext a; match a with | ⟨0, _⟩ => rfl | ⟨1, _⟩ => rfl
theorem lidx36 (r : Fin 50000) (j : Fin 128) (k : Fin 256) : lidx_main_v36 (ix2 r j) k = ix2 r k := by
  funext a; match a with | ⟨0, _⟩ => rfl | ⟨1, _⟩ => rfl
theorem ridx36 (r : Fin 50000) (j : Fin 128) (k : Fin 256) : ridx_main_v36 (ix2 r j) k = ix2 k j := by
  funext a; match a with | ⟨0, _⟩ => rfl | ⟨1, _⟩ => rfl
theorem lidx48 (r : Fin 50000) (j : Fin 128) (k : Fin 256) : lidx_main_v48 (ix2 r j) k = ix2 r k := by
  funext a; match a with | ⟨0, _⟩ => rfl | ⟨1, _⟩ => rfl
theorem ridx48 (r : Fin 50000) (j : Fin 128) (k : Fin 256) : ridx_main_v48 (ix2 r j) k = ix2 k j := by
  funext a; match a with | ⟨0, _⟩ => rfl | ⟨1, _⟩ => rfl
theorem bias17 (r : Fin 50000) (j : Fin 128) : idx_main_v16 (idx_main_v17 (ix2 r j)) = ix1 j := by
  funext a; match a with | ⟨0, _⟩ => rfl
theorem bias22 (r : Fin 50000) (j : Fin 128) : idx_main_v21 (idx_main_v22 (ix2 r j)) = ix1 j := by
  funext a; match a with | ⟨0, _⟩ => rfl
theorem bias28 (r : Fin 50000) (j : Fin 128) : idx_main_v27 (idx_main_v28 (ix2 r j)) = ix1 j := by
  funext a; match a with | ⟨0, _⟩ => rfl
theorem bias38 (r : Fin 50000) (j : Fin 128) : idx_main_v37 (idx_main_v38 (ix2 r j)) = ix1 j := by
  funext a; match a with | ⟨0, _⟩ => rfl
theorem bias50 (r : Fin 50000) (j : Fin 128) : idx_main_v49 (idx_main_v50 (ix2 r j)) = ix1 j := by
  funext a; match a with | ⟨0, _⟩ => rfl

/-! ## The hidden row -/

/-- The skip product at (r, j): the node's row r against column j of the skip matrix. -/
theorem skip_eq (r : Fin 50000) (j : Fin 128) :
    val_main_v19 (F := Ideal) x0 x6 (ix2 r j) = ∑ d : Fin 128, Cert.Spec.mat x0 r d * Cert.Spec.mat x6 d j := by
  rw [val_main_v19_apply]
  refine Finset.sum_congr rfl fun d _ => ?_
  rw [lidx19, ridx19]
  rfl

/-- The clipped stage at (r, j) is the hidden row of node r at j: aggregate plus bias plus skip product plus the
    second bias, and the maximum with the zero word, which is the number zero. -/
theorem hid_eq (r : Fin 50000) (j : Fin 128) :
    val_main_v24 (F := Ideal) x0 x1 x3 x4 x5 x6 x7 (ix2 r j) = (HROW r) j := by
  rw [val_main_v24_apply, val_main_v23_apply, val_main_v20_apply, val_main_v18_apply, skip_eq,
    val_main_v22_apply, val_main_v21_apply, bias22, val_main_v17_apply, val_main_v16_apply, bias17,
    val_main_call0_v0_apply, val_main_call0_cst_apply, Ideal.ofBits_def, Ideal.ofBits_zero_f32]
  rfl

/-- The hidden rows as a function of the column are the clipped stage along row r. -/
theorem hid_row (r : Fin 50000) :
    (fun d : Fin 128 => val_main_v24 (F := Ideal) x0 x1 x3 x4 x5 x6 x7 (ix2 r d)) = HROW r :=
  funext (hid_eq x0 x1 x3 x4 x5 x6 x7 x8 x9 x10 x11 x12 x13 r)

/-- The first joined stage at (r, k): the hidden row of node r laid before its state row. -/
theorem xh_eq (r : Fin 50000) (k : Fin 256) :
    val_main_v25 (F := Ideal) x0 x1 x2 x3 x4 x5 x6 x7 (ix2 r k) = Cert.Spec.join (HROW r) (Cert.Spec.mat x2 r) k := by
  unfold val_main_v25
  rw [← hid_row x0 x1 x3 x4 x5 x6 x7 x8 x9 x10 x11 x12 x13 r]
  exact concat_cols_apply (c₁ := 128) (c₂ := 128) (c := 256) rfl _ _ _ r k

/-! ## The gates -/

/-- One over one plus the exponential of the negative, with the float word for one, is the logistic. -/
theorem logistic_word (x : EReal) :
    Ideal.div (Ideal.ofBits .f32 0x3F800000#32) (Ideal.ofBits .f32 0x3F800000#32 + Ideal.exp (-x))
      = Ideal.logistic x := by
  show Ideal.div Cert.Spec.one (Cert.Spec.one + Ideal.exp (-x)) = Ideal.logistic x
  rw [Cert.Spec.one_eq]
  rfl

/-- The update gate's product at (r, j): the joined row of node r against column j of its matrix. -/
theorem dotz_eq (r : Fin 50000) (j : Fin 128) :
    val_main_v26 (F := Ideal) x0 x1 x2 x3 x4 x5 x6 x7 x8 (ix2 r j)
      = ∑ k : Fin 256, Cert.Spec.join (HROW r) (Cert.Spec.mat x2 r) k * Cert.Spec.mat x8 k j := by
  rw [val_main_v26_apply]
  refine Finset.sum_congr rfl fun k _ => ?_
  rw [lidx26, ridx26, xh_eq x0 x1 x2 x3 x4 x5 x6 x7 x8 x9 x10 x11 x12 x13 r k]
  rfl

/-- The update gate at (r, j). -/
theorem z_eq (r : Fin 50000) (j : Fin 128) :
    val_main_v35 (F := Ideal) x0 x1 x2 x3 x4 x5 x6 x7 x8 x9 (ix2 r j)
      = Ideal.logistic (Cert.Spec.lin (PRM).Wz (PRM).bz (Cert.Spec.join (HROW r) (Cert.Spec.mat x2 r)) j) := by
  rw [val_main_v35_apply, val_main_v34_apply, val_main_cst_2_apply, val_main_v33_apply, val_main_v32_apply,
    val_main_cst_1_apply, val_main_v31_apply, val_main_v30_apply, val_main_v29_apply, dotz_eq x0 x1 x2 x3 x4 x5 x6 x7 x8 x9 x10 x11 x12 x13 r j,
    val_main_v28_apply, val_main_v27_apply, bias28]
  simp only [Ideal.hostDivf_def, Ideal.addf_def, Ideal.hostUnary_exp_def, Ideal.hostNegf_def, Ideal.negf_def, Ideal.ofBits_def]
  exact logistic_word _

/-- The reset gate's product at (r, j). -/
theorem dotr_eq (r : Fin 50000) (j : Fin 128) :
    val_main_v36 (F := Ideal) x0 x1 x2 x3 x4 x5 x6 x7 x10 (ix2 r j)
      = ∑ k : Fin 256, Cert.Spec.join (HROW r) (Cert.Spec.mat x2 r) k * Cert.Spec.mat x10 k j := by
  rw [val_main_v36_apply]
  refine Finset.sum_congr rfl fun k _ => ?_
  rw [lidx36, ridx36, xh_eq x0 x1 x2 x3 x4 x5 x6 x7 x8 x9 x10 x11 x12 x13 r k]
  rfl

/-- The reset gate at (r, d). -/
theorem r_eq (r : Fin 50000) (d : Fin 128) :
    val_main_v45 (F := Ideal) x0 x1 x2 x3 x4 x5 x6 x7 x10 x11 (ix2 r d) = Cert.Spec.rgate PRM (HROW r) (Cert.Spec.mat x2 r) d := by
  rw [val_main_v45_apply, val_main_v44_apply, val_main_cst_4_apply, val_main_v43_apply, val_main_v42_apply,
    val_main_cst_3_apply, val_main_v41_apply, val_main_v40_apply, val_main_v39_apply, dotr_eq x0 x1 x2 x3 x4 x5 x6 x7 x8 x9 x10 x11 x12 x13 r d,
    val_main_v38_apply, val_main_v37_apply, bias38]
  simp only [Ideal.hostDivf_def, Ideal.addf_def, Ideal.hostUnary_exp_def, Ideal.hostNegf_def, Ideal.negf_def, Ideal.ofBits_def]
  exact logistic_word _

/-- The gated state row of node r: the reset gate times the state, column by column. -/
theorem rh_row (r : Fin 50000) :
    (fun d : Fin 128 => val_main_v46 (F := Ideal) x0 x1 x2 x3 x4 x5 x6 x7 x10 x11 (ix2 r d))
      = fun d => Cert.Spec.rgate PRM (HROW r) (Cert.Spec.mat x2 r) d * Cert.Spec.mat x2 r d := by
  funext d
  rw [val_main_v46_apply, r_eq x0 x1 x2 x3 x4 x5 x6 x7 x8 x9 x10 x11 x12 x13 r d]
  rfl

/-- The second joined stage at (r, k): the hidden row laid before the gated state row. -/
theorem xrh_eq (r : Fin 50000) (k : Fin 256) :
    val_main_v47 (F := Ideal) x0 x1 x2 x3 x4 x5 x6 x7 x10 x11 (ix2 r k)
      = Cert.Spec.join (HROW r) (fun d => Cert.Spec.rgate PRM (HROW r) (Cert.Spec.mat x2 r) d * Cert.Spec.mat x2 r d) k := by
  unfold val_main_v47
  rw [← rh_row x0 x1 x2 x3 x4 x5 x6 x7 x8 x9 x10 x11 x12 x13 r, ← hid_row x0 x1 x3 x4 x5 x6 x7 x8 x9 x10 x11 x12 x13 r]
  exact concat_cols_apply (c₁ := 128) (c₂ := 128) (c := 256) rfl _ _ _ r k

/-- The candidate's product at (r, j). -/
theorem doth_eq (r : Fin 50000) (j : Fin 128) :
    val_main_v48 (F := Ideal) x0 x1 x2 x3 x4 x5 x6 x7 x10 x11 x12 (ix2 r j)
      = ∑ k : Fin 256, Cert.Spec.join (HROW r)
          (fun d => Cert.Spec.rgate PRM (HROW r) (Cert.Spec.mat x2 r) d * Cert.Spec.mat x2 r d) k * Cert.Spec.mat x12 k j := by
  rw [val_main_v48_apply]
  refine Finset.sum_congr rfl fun k _ => ?_
  rw [lidx48, ridx48, xrh_eq x0 x1 x2 x3 x4 x5 x6 x7 x8 x9 x10 x11 x12 x13 r k]
  rfl

/-- The candidate at (r, j): the hyperbolic tangent of the linear image of the second joined row. -/
theorem cand_eq (r : Fin 50000) (j : Fin 128) :
    val_main_v52 (F := Ideal) x0 x1 x2 x3 x4 x5 x6 x7 x10 x11 x12 x13 (ix2 r j)
      = Ideal.tanh (Cert.Spec.lin (PRM).Wh (PRM).bh (Cert.Spec.join (HROW r)
          (fun d => Cert.Spec.rgate PRM (HROW r) (Cert.Spec.mat x2 r) d * Cert.Spec.mat x2 r d)) j) := by
  rw [val_main_v52_apply, val_main_v51_apply, doth_eq x0 x1 x2 x3 x4 x5 x6 x7 x8 x9 x10 x11 x12 x13 r j, val_main_v50_apply, val_main_v49_apply, bias50]
  simp only [Ideal.hostUnary_tanh_def, Ideal.addf_def]
  rfl

/-- The last stage at (r, j): the gate times the state plus (the word one less the gate) times the candidate. -/
theorem tail_eq (r : Fin 50000) (j : Fin 128) :
    val_main_v57 (F := Ideal) x0 x1 x2 x3 x4 x5 x6 x7 x8 x9 x10 x11 x12 x13 (ix2 r j)
      = Cert.Spec.rowOut PRM (fun j => val_main_v15 (F := Ideal) x0 x1 x3 x4 (ix2 r j)) (Cert.Spec.mat x0 r)
          (Cert.Spec.mat x2 r) j := by
  rw [val_main_v57_apply, val_main_v53_apply, val_main_v56_apply, val_main_v55_apply, val_main_v54_apply,
    val_main_cst_5_apply, z_eq x0 x1 x2 x3 x4 x5 x6 x7 x8 x9 x10 x11 x12 x13 r j, cand_eq x0 x1 x2 x3 x4 x5 x6 x7 x8 x9 x10 x11 x12 x13 r j]
  rfl

end Stages

/-- The reference's result at index i, over its own aggregate stage read along row i 0. -/
theorem ref_tail (x0 : (⟨S50000x128, .f32⟩ : BufTy).Contents (Elt Ideal)) (x1 : (⟨S800000x32, .f32⟩ : BufTy).Contents (Elt Ideal)) (x2 : (⟨S50000x128, .f32⟩ : BufTy).Contents (Elt Ideal)) (x3 : (⟨S2x800000, .i32⟩ : BufTy).Contents (Elt Ideal)) (x4 : (⟨S160x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) (i : S50000x128.Idx) :
    val_main_v57 (F := Ideal) x0 x1 x2 x3 x4 x5 x6 x7 x8 x9 x10 x11 x12 x13 i
      = Cert.Spec.rowOut (Cert.Spec.params x5 x6 x7 x8 x9 x10 x11 x12 x13)
          (fun j => val_main_v15 (F := Ideal) x0 x1 x3 x4 (ix2 ⟨(i 0).val, idx2_lt0 i⟩ j))
          (Cert.Spec.mat x0 ⟨(i 0).val, idx2_lt0 i⟩) (Cert.Spec.mat x2 ⟨(i 0).val, idx2_lt0 i⟩) ⟨(i 1).val, idx2_lt1 i⟩ := by
  -- the index is the pair of its coordinates; read the last stage there
  have hi : ix2 (⟨(i 0).val, idx2_lt0 i⟩ : Fin 50000) (⟨(i 1).val, idx2_lt1 i⟩ : Fin 128) = i := (eq_ix2 i).symm
  have h := tail_eq x0 x1 x2 x3 x4 x5 x6 x7 x8 x9 x10 x11 x12 x13 ⟨(i 0).val, idx2_lt0 i⟩ ⟨(i 1).val, idx2_lt1 i⟩
  rw [hi] at h
  exact h

end Cert.ReferenceIdeal.RefValue

end
-- ==== Proof.RefValue.lean ====
/-
  THE REFERENCE'S RESULT ARRAY: the messages-first result of the argument arrays. Its aggregate stage is the
  messages-first aggregate, and everything after the aggregate is the row function of the aggregate's row, the
  node's row and the state's row.
-/
import proofs.«107878_j27410481283214_1_alg».proof.Proof.RefAgg
import proofs.«107878_j27410481283214_1_alg».proof.Proof.RefTail

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-- The reference's last stage is the messages-first result. -/
theorem ref_eq (x0 : (⟨S50000x128, .f32⟩ : BufTy).Contents (Elt Ideal)) (x1 : (⟨S800000x32, .f32⟩ : BufTy).Contents (Elt Ideal)) (x2 : (⟨S50000x128, .f32⟩ : BufTy).Contents (Elt Ideal)) (x3 : (⟨S2x800000, .i32⟩ : BufTy).Contents (Elt Ideal)) (x4 : (⟨S160x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x128, .f32⟩ : BufTy).Contents (Elt Ideal)) (x9 : (⟨S128, .f32⟩ : BufTy).Contents (Elt Ideal)) (x10 : (⟨S256x128, .f32⟩ : BufTy).Contents (Elt Ideal)) (x11 : (⟨S128, .f32⟩ : BufTy).Contents (Elt Ideal)) (x12 : (⟨S256x128, .f32⟩ : BufTy).Contents (Elt Ideal)) (x13 : (⟨S128, .f32⟩ : BufTy).Contents (Elt Ideal)) :
    val_main_v57 (F := Ideal) x0 x1 x2 x3 x4 x5 x6 x7 x8 x9 x10 x11 x12 x13
      = Cert.Spec.outMsg x0 x1 x2 x3 x4 (Cert.Spec.params x5 x6 x7 x8 x9 x10 x11 x12 x13) := by
  funext i
  rw [ref_tail]
  have h : (fun j => val_main_v15 (F := Ideal) x0 x1 x3 x4 (ix2 ⟨(i 0).val, idx2_lt0 i⟩ j))
      = Cert.Spec.aggMsg (Cert.Spec.mat x0) (Cert.Spec.mat x1) (Cert.Spec.mat x4)
          (Cert.Spec.srcWord (Cert.Spec.words x3)) (Cert.Spec.dstWord (Cert.Spec.words x3)) ⟨(i 0).val, idx2_lt0 i⟩ :=
    funext fun j => ref_agg x0 x1 x3 x4 (ix2 ⟨(i 0).val, idx2_lt0 i⟩ j)
  rw [h]
  rfl

end Cert.ReferenceIdeal.RefValue

end
-- ==== Proof.AggLaw.lean ====
/-
  THE LAW THAT JOINS THE TWO PROGRAMS: a linear image commutes with the edge sum.

  For finite entries (real numbers: no infinity among the node rows, the edge rows and the message matrix), summing
  the messages of the edges that land on row r gives the same number as summing the source rows and the edge rows
  first and taking the linear image of the sums, the first 128 rows of the matrix on the node part and the last 32
  on the edge part. On the extended reals this needs the finiteness: a product does not distribute over a sum that
  mixes the two infinities.
-/
import Mathlib.Data.EReal.Operations
import Mathlib.Algebra.BigOperators.Fin
import Mathlib.Algebra.BigOperators.Ring.Finset
import proofs.«107878_j27410481283214_1_alg».proof.Proof.Spec

noncomputable section

open scoped BigOperators

namespace Cert.Spec

open Idealize.ShloMosaic Idealize.ShloMosaic.ValueIdx Idealize.ShloMosaic.Rows

/-- A finite sum of real numbers, each read as an extended real, is the real sum read as an extended real. -/
theorem coe_sum_real {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, EReal.coe_add, ih]

/-- A real number present under a condition and 0 otherwise, read as an extended real. -/
theorem coe_ite_zero (c : Prop) [Decidable c] (a : ℝ) :
    (if c then ((a : ℝ) : EReal) else 0) = (((if c then a else 0 : ℝ)) : EReal) := by
  by_cases h : c
  · rw [if_pos h, if_pos h]
  · rw [if_neg h, if_neg h, EReal.coe_zero]

/-- A choice between two real numbers by a condition, read as an extended real. -/
theorem coe_dite_real (c : Prop) [Decidable c] (a : c → ℝ) (b : ¬c → ℝ) :
    (if h : c then ((a h : ℝ) : EReal) else ((b h : ℝ) : EReal)) = ((if h : c then a h else b h : ℝ) : EReal) := by
  by_cases h : c
  · rw [dif_pos h, dif_pos h]
  · rw [dif_neg h, dif_neg h]

/-- A sum of 160 terms is the sum of its first 128 and the sum of its last 32. -/
theorem sum_fin160 {M : Type} [AddCommMonoid M] (f : Fin 160 → M) :
    ∑ k : Fin 160, f k
      = (∑ d : Fin 128, f ⟨d.val, by have := d.isLt; omega⟩)
        + ∑ d : Fin 32, f ⟨128 + d.val, by have := d.isLt; omega⟩ :=
  Fin.sum_univ_add (a := 128) (b := 32) f

/-- The law on the real numbers: the linear image of the two conditional sums, the first 128 weights on the first
    and the last 32 on the second, is the conditional sum of the 160-term linear images of the joined rows. The
    edge sums and the weight sums are exchanged, the weight goes inside the condition, and the 160 terms are split
    at 128. -/
theorem real_law {ι : Type} [Fintype ι] (p : ι → Prop) [DecidablePred p] (a : ι → Fin 128 → ℝ)
    (b : ι → Fin 32 → ℝ) (w : Fin 160 → ℝ) :
    (∑ d : Fin 128, (∑ e, if p e then a e d else 0) * w ⟨d.val, by have := d.isLt; omega⟩)
      + (∑ d : Fin 32, (∑ e, if p e then b e d else 0) * w ⟨128 + d.val, by have := d.isLt; omega⟩)
    = ∑ e, if p e then ∑ k : Fin 160, (if h : k.val < 128 then a e ⟨k.val, h⟩
        else b e ⟨k.val - 128, by have := k.isLt; omega⟩) * w k else 0 := by
  -- one edge's 160 terms, split at 128: the first 128 read the node part, the last 32 the edge part
  have hR : ∀ e, (∑ k : Fin 160, (if h : k.val < 128 then a e ⟨k.val, h⟩
        else b e ⟨k.val - 128, by have := k.isLt; omega⟩) * w k)
      = (∑ d : Fin 128, a e d * w ⟨d.val, by have := d.isLt; omega⟩)
        + ∑ d : Fin 32, b e d * w ⟨128 + d.val, by have := d.isLt; omega⟩ := by
    intro e
    rw [sum_fin160]
    refine congrArg₂ (fun u v => u + v) (Finset.sum_congr rfl fun d _ => ?_) (Finset.sum_congr rfl fun d _ => ?_)
    · rw [dif_pos (show d.val < 128 from d.isLt)]
    · rw [dif_neg (show ¬ 128 + d.val < 128 from by omega)]
      have hd : (⟨128 + d.val - 128, by have := d.isLt; omega⟩ : Fin 32) = d :=
        Fin.ext (Nat.add_sub_cancel_left 128 d.val)
      rw [hd]
  -- the weight goes inside each conditional sum, and the two sums change places
  have hA : (∑ d : Fin 128, (∑ e, if p e then a e d else 0) * w ⟨d.val, by have := d.isLt; omega⟩)
      = ∑ e, if p e then ∑ d : Fin 128, a e d * w ⟨d.val, by have := d.isLt; omega⟩ else 0 := by
    simp only [Finset.sum_mul, ite_mul, zero_mul]
    rw [Finset.sum_comm]
    refine Finset.sum_congr rfl fun e _ => ?_
    by_cases h : p e
    · simp only [if_pos h]
    · simp only [if_neg h, Finset.sum_const_zero]
  have hB : (∑ d : Fin 32, (∑ e, if p e then b e d else 0) * w ⟨128 + d.val, by have := d.isLt; omega⟩)
      = ∑ e, if p e then ∑ d : Fin 32, b e d * w ⟨128 + d.val, by have := d.isLt; omega⟩ else 0 := by
    simp only [Finset.sum_mul, ite_mul, zero_mul]
    rw [Finset.sum_comm]
    refine Finset.sum_congr rfl fun e _ => ?_
    by_cases h : p e
    · simp only [if_pos h]
    · simp only [if_neg h, Finset.sum_const_zero]
  rw [hA, hB, ← Finset.sum_add_distrib]
  refine Finset.sum_congr rfl fun e _ => ?_
  by_cases h : p e
  · rw [if_pos h, if_pos h, if_pos h, hR]
  · rw [if_neg h, if_neg h, if_neg h, add_zero]

/-- The same law on the extended reals, for entries that are real numbers. -/
theorem ereal_law {ι : Type} [Fintype ι] (p : ι → Prop) [DecidablePred p] (a : ι → Fin 128 → ℝ)
    (b : ι → Fin 32 → ℝ) (w : Fin 160 → ℝ) :
    (∑ d : Fin 128, (∑ e, if p e then ((a e d : ℝ) : EReal) else 0)
        * ((w ⟨d.val, by have := d.isLt; omega⟩ : ℝ) : EReal))
      + (∑ d : Fin 32, (∑ e, if p e then ((b e d : ℝ) : EReal) else 0)
        * ((w ⟨128 + d.val, by have := d.isLt; omega⟩ : ℝ) : EReal))
    = ∑ e, if p e then ∑ k : Fin 160, (if h : k.val < 128 then ((a e ⟨k.val, h⟩ : ℝ) : EReal)
        else ((b e ⟨k.val - 128, by have := k.isLt; omega⟩ : ℝ) : EReal)) * ((w k : ℝ) : EReal) else 0 := by
  simp only [coe_ite_zero, coe_dite_real, coe_sum_real, ← EReal.coe_mul, ← EReal.coe_add]
  exact congrArg _ (real_law p a b w)

/-- Sums first or messages first: the same aggregate, when every entry is a real number. -/
theorem aggSum_eq_aggMsg (X : Fin 50000 → Fin 128 → EReal) (E : Fin 800000 → Fin 32 → EReal)
    (W : Fin 160 → Fin 128 → EReal) (src dst : Fin 800000 → BitVec 32)
    (hX : ∀ r d, ∃ x : ℝ, X r d = (x : EReal)) (hE : ∀ e d, ∃ x : ℝ, E e d = (x : EReal))
    (hW : ∀ k j, ∃ x : ℝ, W k j = (x : EReal)) (r : Fin 50000) (j : Fin 128) :
    aggSum X E W src dst r j = aggMsg X E W src dst r j := by
  choose x hx using hX
  choose y hy using hE
  choose w hw using hW
  obtain rfl : X = fun r d => ((x r d : ℝ) : EReal) := funext fun r => funext fun d => hx r d
  obtain rfl : E = fun e d => ((y e d : ℝ) : EReal) := funext fun e => funext fun d => hy e d
  obtain rfl : W = fun k j => ((w k j : ℝ) : EReal) := funext fun k => funext fun j => hw k j
  simp only [aggSum, aggMsg, sumX, sumE, msgIn, srcRow]
  exact ereal_law (fun e => srow 50000 (dst e) = some r) (fun e d => x (grow 50000 pos50000 (src e)) d) y
    (fun k => w k j)

/-- So the two result arrays are one array, when the node rows, the edge rows and the message matrix are finite. -/
theorem outSum_eq_outMsg (a0 : (⟨2, ![50000, 128]⟩ : Shape).Idx → EReal) (a1 : (⟨2, ![800000, 32]⟩ : Shape).Idx → EReal)
    (a2 : (⟨2, ![50000, 128]⟩ : Shape).Idx → EReal) (a3 : (⟨2, ![2, 800000]⟩ : Shape).Idx → BitVec 32)
    (a4 : (⟨2, ![160, 128]⟩ : Shape).Idx → EReal) (P : Params)
    (h0 : ∀ i, ∃ x : ℝ, a0 i = (x : EReal)) (h1 : ∀ i, ∃ x : ℝ, a1 i = (x : EReal))
    (h4 : ∀ i, ∃ x : ℝ, a4 i = (x : EReal)) :
    outSum a0 a1 a2 a3 a4 P = outMsg a0 a1 a2 a3 a4 P := by
  have hagg : aggSum (mat a0) (mat a1) (mat a4) (srcWord (words a3)) (dstWord (words a3))
      = aggMsg (mat a0) (mat a1) (mat a4) (srcWord (words a3)) (dstWord (words a3)) :=
    funext fun r => funext fun j =>
      aggSum_eq_aggMsg (mat a0) (mat a1) (mat a4) (srcWord (words a3)) (dstWord (words a3))
        (fun r d => h0 (ix2 r d)) (fun e d => h1 (ix2 e d)) (fun k j => h4 (ix2 k j)) r j
  unfold outSum outMsg
  rw [hagg]

end Cert.Spec

end
-- ==== Proof.Finite.lean ====
/-
  FROM THE PRECONDITION TO REAL NUMBERS. The precondition is the conjunction, array by array, of "every entry's
  absolute value is below +infinity". On the extended reals |x| < +infinity leaves exactly the real numbers, so every
  entry of the node rows, the edge rows and the message matrix is a real number: what the law that joins the two
  programs needs.
-/
import proofs.«107878_j27410481283214_1_alg».proof.Pre_finite_inputs
import proofs.«107878_j27410481283214_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Finite

open Idealize.ShloMosaic Idealize.ShloMosaic.ValueIdx Cert.Pre_finite_inputs Cert.Pre_finite_inputs.Gen

/-- An extended real whose absolute value (the larger of x and -x) is strictly below +infinity is a real number: at
    -infinity the larger of the two is +infinity, and at +infinity it is +infinity itself. -/
theorem real_of_abs_lt_top (x : EReal) (h : max x (-x) < ⊤) : ∃ r : ℝ, x = (r : EReal) := by
  induction x using EReal.rec with
  | bot => simp at h
  | coe r => exact ⟨r, rfl⟩
  | top => simp at h

/-- The float word 0x7F800000 denotes +infinity. -/
theorem inf_word : Ideal.ofBits .f32 0x7F800000#32 = (⊤ : EReal) := by
  simp [Ideal.ofBits, Ideal.ieee]

/-- The comparison "|x| is below the word 0x7F800000" answering 1 makes x a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  apply real_of_abs_lt_top
  have h' : Ideal.cmp .olt (max x (-x)) (Ideal.ofBits .f32 0x7F800000#32) = 1#1 := h
  rw [inf_word] at h'
  unfold Ideal.cmp at h'
  by_contra hn
  simp [hn] at h'

/-- An array whose "every |entry| is below +infinity" bit is 1 holds a real number at every index. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant S_ .f32 0x7F800000#32)))
          (constantI S_ 1 1#1) hr hu ValueIdx.ix0 = 1#1)
    (i : s.Idx) : ∃ x : ℝ, a i = (x : EReal) := by
  haveI : Subsingleton S_.Idx := ⟨fun a b => funext fun d => d.elim0⟩
  have h1 := Host.reduce_andi_all _ _ hr hu _ e i
  exact real_of_cmp (a i) h1

/-- A conjunction of two arrays of bits that is 1 at an index has both bits 1 there. -/
theorem and_split {s : Shape} (x y : IVec s 1) (i : s.Idx) (h : andi x y i = 1#1) : x i = 1#1 ∧ y i = 1#1 :=
  IntOp.andi_eq_one.1 h

/-- Under the precondition every entry of the node rows (argument 0), of the edge rows (argument 1) and of the
    message matrix (argument 4) is a real number. -/
theorem reals_of_pre (a0 : FVec Ideal Cert.Pre_finite_inputs.S50000x128 .f32) (a1 : FVec Ideal Cert.Pre_finite_inputs.S800000x32 .f32) (a2 : FVec Ideal Cert.Pre_finite_inputs.S50000x128 .f32) (a3 : IVec Cert.Pre_finite_inputs.S2x800000 32)
    (a4 : FVec Ideal Cert.Pre_finite_inputs.S160x128 .f32) (a5 : FVec Ideal Cert.Pre_finite_inputs.S128 .f32) (a6 : FVec Ideal Cert.Pre_finite_inputs.S128x128 .f32) (a7 : FVec Ideal Cert.Pre_finite_inputs.S128 .f32) (a8 : FVec Ideal Cert.Pre_finite_inputs.S256x128 .f32)
    (a9 : FVec Ideal Cert.Pre_finite_inputs.S128 .f32) (a10 : FVec Ideal Cert.Pre_finite_inputs.S256x128 .f32) (a11 : FVec Ideal Cert.Pre_finite_inputs.S128 .f32) (a12 : FVec Ideal Cert.Pre_finite_inputs.S256x128 .f32) (a13 : FVec Ideal Cert.Pre_finite_inputs.S128 .f32)
    (h : Cert.Pre_finite_inputs.fn (F := Ideal) a0 a1 a2 a3 a4 a5 a6 a7 a8 a9 a10 a11 a12 a13 = fun _ => 1#1) :
    (∀ i, ∃ x : ℝ, a0 i = (x : EReal)) ∧ (∀ i, ∃ x : ℝ, a1 i = (x : EReal)) ∧ (∀ i, ∃ x : ℝ, a4 i = (x : EReal)) := by
  have h0 := congrFun h ValueIdx.ix0
  dsimp only [Cert.Pre_finite_inputs.fn, fn_part1, fn_part2, fn_part3] at h0
  -- the conjunction is nested to the left: peel the last nine arrays (13, 12, …, 5) off the outside
  obtain ⟨h0, -⟩ := and_split _ _ _ h0
  obtain ⟨h0, -⟩ := and_split _ _ _ h0
  obtain ⟨h0, -⟩ := and_split _ _ _ h0
  obtain ⟨h0, -⟩ := and_split _ _ _ h0
  obtain ⟨h0, -⟩ := and_split _ _ _ h0
  obtain ⟨h0, -⟩ := and_split _ _ _ h0
  obtain ⟨h0, -⟩ := and_split _ _ _ h0
  obtain ⟨h0, -⟩ := and_split _ _ _ h0
  obtain ⟨h0, -⟩ := and_split _ _ _ h0
  -- what is left is ((array 0 ∧ array 1) ∧ array 2) ∧ array 4
  obtain ⟨h0, e4⟩ := and_split _ _ _ h0
  obtain ⟨h0, -⟩ := and_split _ _ _ h0
  obtain ⟨e0, e1⟩ := and_split _ _ _ h0
  exact ⟨real_of_all a0 _ _ _ e0, real_of_all a1 _ _ _ e1, real_of_all a4 _ _ _ e4⟩

end Cert.Finite

end
-- ==== Proof.lean ====
/-
  The certificate's claim: the kernel (a graph layer's aggregate computed as edge sums first, then one fused region
  for the linear images, the clip at zero and the gated update) against its reference (each edge's message first,
  then the edge sum, then the same update), over the extended reals.

  The three frames: the kernel's two are the generated frame runs; the reference's is its generated run with the
  result dropped. The kernel's idealization rewrote no operation, so preserves has nothing to state. The value
  claim: the kernel's result array ends holding the sums-first result of its arguments (the region's 25 blocks tile
  it, and each stored element is the row function of its row: Proof/KernelValue.lean over Proof/KernelPay.lean and
  Proof/KernelHost.lean), the reference's holds the messages-first result (Proof/RefValue.lean over Proof/RefAgg.lean
  and Proof/RefTail.lean), and for finite node rows, edge rows and message matrix (the precondition:
  Proof/Finite.lean) the two are one array, because a linear image commutes with a finite sum of real rows
  (Proof/AggLaw.lean).
-/
import proofs.«107878_j27410481283214_1_alg».proof.Defs
import proofs.«107878_j27410481283214_1_alg».proof.Proof.Gen.Kernel
import proofs.«107878_j27410481283214_1_alg».proof.Proof.Gen.Kernel.Skeleton
import proofs.«107878_j27410481283214_1_alg».proof.Proof.Gen.Kernel.Launch
import proofs.«107878_j27410481283214_1_alg».proof.Proof.Gen.Kernel.Points
import proofs.«107878_j27410481283214_1_alg».proof.Proof.Gen.Kernel.Frame
import proofs.«107878_j27410481283214_1_alg».proof.Proof.Gen.KernelIdeal
import proofs.«107878_j27410481283214_1_alg».proof.Proof.Gen.KernelIdeal.Skeleton
import proofs.«107878_j27410481283214_1_alg».proof.Proof.Gen.KernelIdeal.Launch
import proofs.«107878_j27410481283214_1_alg».proof.Proof.Gen.KernelIdeal.Points
import proofs.«107878_j27410481283214_1_alg».proof.Proof.Gen.KernelIdeal.Frame
import proofs.«107878_j27410481283214_1_alg».proof.Proof.Gen.ReferenceIdeal
import proofs.«107878_j27410481283214_1_alg».proof.Proof.Gen.Pre_finite_inputs
import proofs.«107878_j27410481283214_1_alg».proof.Proof.Gen.KernelIdeal.Value
import proofs.«107878_j27410481283214_1_alg».proof.Proof.Gen.ReferenceIdeal.Run
import proofs.«107878_j27410481283214_1_alg».proof.Proof.Gen.ReferenceIdeal.Read
import proofs.«107878_j27410481283214_1_alg».proof.Proof.KernelValue
import proofs.«107878_j27410481283214_1_alg».proof.Proof.RefValue
import proofs.«107878_j27410481283214_1_alg».proof.Proof.AggLaw
import proofs.«107878_j27410481283214_1_alg».proof.Proof.Finite
import Idealize.ShloMosaic.Adequacy
import Idealize.ShloMosaic.Init

noncomputable section

namespace Cert.Proof

open Idealize.ShloMosaic Idealize.ShloMosaic.TcCoe Idealize.SL.Sem

/-- The two idealized programs end with equal results: the kernel's array is the sums-first result, the reference's
    the messages-first result, of arguments that agree and are finite. -/
theorem algebraic : Cert.algebraic_KernelIdeal_ReferenceIdeal := by
  intro m ρ m' ρ' hpre hagree
  refine ⟨fun c => Cert.KernelIdeal.KValue.result m c, Cert.KernelIdeal.KValue.run m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v57_eq, Cert.ReferenceIdeal.RefValue.ref_eq]
  obtain ⟨h0, h1, h2, h3, h4, h5, h6, h7, h8, h9, h10, h11, h12, h13⟩ := hagree c
  rw [h0, h1, h2, h3, h4, h5, h6, h7, h8, h9, h10, h11, h12, h13]
  obtain ⟨f0, f1, f4⟩ := Cert.Finite.reals_of_pre _ _ _ _ _ _ _ _ _ _ _ _ _ _ (hpre c)
  exact (Cert.Spec.outSum_eq_outMsg _ _ _ _ _ _ f0 f1 f4).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
